-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x160000 : Shape := ⟨2, ![2, 160000]⟩
abbrev S1 : Shape := ⟨1, ![1]⟩
abbrev S512x512 : Shape := ⟨2, ![512, 512]⟩
abbrev S512 : Shape := ⟨1, ![512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S1 : S_.BroadcastsInDim S1 (![] : Fin 0 → Fin S1.rank)
  reducesTo_S1_S_d0 : S1.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S512 .f32) (main_arg6 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S50000x512 .f32) (main_arg1 : IVec S2x160000 32) (main_arg2 : FVec F S1 .f32) (main_arg3 : FVec F S512x512 .f32) (main_arg4 : FVec F S512 .f32) (main_arg5 : FVec F S512 .f32) (main_arg6 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_v13 main_v16
-- ==== Kernel.lean ====
abbrev S50000x512 : Shape := ⟨2, ![50000, 512]⟩
abbrev S2x160000 : Shape := ⟨2, ![2, 160000]⟩
abbrev S1 : Shape := ⟨1, ![1]⟩
abbrev S512x512 : Shape := ⟨2, ![512, 512]⟩
abbrev S512 : Shape := ⟨1, ![512]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S1x512 : Shape := ⟨2, ![1, 512]⟩
abbrev S2000x512 : Shape := ⟨2, ![2000, 512]⟩

abbrev nBuf : Space → Nat
  | .hbm => 45
  | .vmem => 16
  | .smem => 0
  | _ => 0

abbrev bufTy : (tb : Table) → Fin (tcTables nBuf tb) → BufTy
  | .hbm, ⟨0, _⟩ => ⟨S50000x512, .f32⟩
  | .hbm, ⟨1, _⟩ => ⟨S2x160000, .i32⟩
  | .hbm, ⟨2, _⟩ => ⟨S1, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1x160000, .i32⟩
  | .hbm, ⟨8, _⟩ => ⟨S160000, .i32⟩
  | .hbm, ⟨9, _⟩ => ⟨S1x160000, .i32⟩
  | .hbm, ⟨10, _⟩ => ⟨S160000, .i32⟩
  | .hbm, ⟨11, _⟩ => ⟨S_, .i32⟩
  | .hbm, ⟨12, _⟩ => ⟨S160000, .i32⟩
  | .hbm, ⟨13, _⟩ => ⟨S160000, .i1⟩
  | .hbm, ⟨14, _⟩ => ⟨S_, .i32⟩
  | .hbm, ⟨15, _⟩ => ⟨S160000, .i32⟩
  | .hbm, ⟨16, _⟩ => ⟨S160000, .i32⟩
  | .hbm, ⟨17, _⟩ => ⟨S160000, .i32⟩
  | .hbm, ⟨18, _⟩ => ⟨S160000x1, .i32⟩
  | .hbm, ⟨19, _⟩ => ⟨S160000x512, .f32⟩
  | .hbm, ⟨20, _⟩ => ⟨S_, .f32⟩
  | .hbm, ⟨21, _⟩ => ⟨S50000x512, .f32⟩
  | .hbm, ⟨22, _⟩ => ⟨S160000x1, .i32⟩
  | .hbm, ⟨23, _⟩ => ⟨S50000x512, .f32⟩
  | .hbm, ⟨24, _⟩ => ⟨S50000x512, .f32⟩
  | .hbm, ⟨25, _⟩ => ⟨S512x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S50000x512, .f32⟩
  | .hbm, ⟨30, _⟩ => ⟨S1x512, .f32⟩
  | .hbm, ⟨31, _⟩ => ⟨S1x512, .f32⟩
  | .hbm, ⟨32, _⟩ => ⟨S_, .f32⟩
  | .hbm, ⟨33, _⟩ => ⟨S1x512, .f32⟩
  | .hbm, ⟨34, _⟩ => ⟨S1x512, .f32⟩
  | .hbm, ⟨35, _⟩ => ⟨S_, .f32⟩
  | .hbm, ⟨36, _⟩ => ⟨S1x512, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S_, .f32⟩
  | .hbm, ⟨41, _⟩ => ⟨S1x512, .f32⟩
  | .hbm, ⟨42, _⟩ => ⟨S1x512, .f32⟩
  | .hbm, ⟨43, _⟩ => ⟨S1x512, .f32⟩
  | .hbm, ⟨44, _⟩ => ⟨S50000x512, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | .local _ .vmem, ⟨6, _⟩ => ⟨S1x512, .f32⟩
  | .local _ .vmem, ⟨7, _⟩ => ⟨S1x512, .f32⟩
  | .local _ .vmem, ⟨8, _⟩ => ⟨S2000x512, .f32⟩
  | .local _ .vmem, ⟨9, _⟩ => ⟨S2000x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S2000x512, .f32⟩
  | .local _ .vmem, ⟨15, _⟩ => ⟨S2000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v19_2 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S50000x512 : S_.BroadcastsInDim S50000x512 (![] : Fin 0 → Fin S50000x512.rank)
  transposes_S512x512_S512x512_1_0 : S512x512.Transposes [1, 0] S512x512
  shapeCasts_S512_S1x512 : S512.ShapeCasts S1x512
  inb_S1x512_S1x512_0_0 : ∀ a, (![0, 0] : Fin 2 → Nat) a + S1x512.size a ≤ S1x512.size a
  h_S1x512 : 0 < S1x512.numel
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S1x512_S1x512 : S1x512.ShapeCasts S1x512
  broadcasts_S1x512_S2000x512 : S1x512.Broadcasts S2000x512
  reduces_S2000x512_S512 : S2000x512.Reduces [0] S512
  bcast_S_S1x512 : S_.BroadcastsInDim S1x512 (![] : Fin 0 → Fin S1x512.rank)
  gather_S50000x512_S160000x1_S160000x512_1_0_n_n_0_1_1512_wf : GatherDims.WF S50000x512 S160000x1 S160000x512 [1] [0] [] [0] [] 1 ![1, 512]
  scatter_S50000x512_S160000x1_S160000x512_1_0_0_1_wf : ScatterDims.WF S50000x512 S160000x1 S160000x512 [1] [0] [0] 1
  dot_S2000x512_S512x512_S2000x512_1_0_0_1_n_n_wf : DotDims.WF S2000x512 S512x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S50000x512.size a
  hwx0_3 : ∀ i : grid0.Coords, EltTy.bits .f32 = 32 ∨ (Rect.block (s := S50000x512) S2000x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x512.size a ≤ S50000x512.size a
  hwx1_5 : ∀ i : grid1.Coords, EltTy.bits .f32 = 32 ∨ (Rect.block (s := S50000x512) S2000x512.size (cc1_transform_5 i) (hinb1_5 i)).WholeWords (EltTy.packing .f32)

variable [Facts₀]

def gather_S50000x512_S160000x1_S160000x512_1_0_n_n_0_1_1512 : GatherDims S50000x512 S160000x1 S160000x512 where
  offsetDims := [1]
  collapsedSliceDims := [0]
  operandBatchingDims := []
  startIndicesBatchingDims := []
  startIndexMap := [0]
  indexVectorDim := 1
  sliceSizes := ![1, 512]
  wf := gather_S50000x512_S160000x1_S160000x512_1_0_n_n_0_1_1512_wf
def scatter_S50000x512_S160000x1_S160000x512_1_0_0_1 : ScatterDims S50000x512 S160000x1 S160000x512 where
  updateWindowDims := [1]
  insertedWindowDims := [0]
  scatterDimsToOperandDims := [0]
  indexVectorDim := 1
  wf := scatter_S50000x512_S160000x1_S160000x512_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf

abbrev win0_0 : Pipeline.Window sig grid0 :=
  Pipeline.Window.ofSpec (Memref.whole main_v14) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19_0) S2000x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19_1) S1x512.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19_2) S1x512.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19_0) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S2000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x160000 : Shape := ⟨2, ![2, 160000]⟩
abbrev S1 : Shape := ⟨1, ![1]⟩
abbrev S512x512 : Shape := ⟨2, ![512, 512]⟩
abbrev S512 : Shape := ⟨1, ![512]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S1x512 : Shape := ⟨2, ![1, 512]⟩

abbrev nBuf : Space → Nat
  | .hbm => 60
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x160000, .i32⟩
  | .hbm, ⟨2, _⟩ => ⟨S1, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1x160000, .i32⟩
  | .hbm, ⟨8, _⟩ => ⟨S160000, .i32⟩
  | .hbm, ⟨9, _⟩ => ⟨S1x160000, .i32⟩
  | .hbm, ⟨10, _⟩ => ⟨S160000, .i32⟩
  | .hbm, ⟨11, _⟩ => ⟨S_, .i32⟩
  | .hbm, ⟨12, _⟩ => ⟨S160000, .i32⟩
  | .hbm, ⟨13, _⟩ => ⟨S160000, .i1⟩
  | .hbm, ⟨14, _⟩ => ⟨S_, .i32⟩
  | .hbm, ⟨15, _⟩ => ⟨S160000, .i32⟩
  | .hbm, ⟨16, _⟩ => ⟨S160000, .i32⟩
  | .hbm, ⟨17, _⟩ => ⟨S160000, .i32⟩
  | .hbm, ⟨18, _⟩ => ⟨S160000x1, .i32⟩
  | .hbm, ⟨19, _⟩ => ⟨S160000x512, .f32⟩
  | .hbm, ⟨20, _⟩ => ⟨S_, .f32⟩
  | .hbm, ⟨21, _⟩ => ⟨S50000x512, .f32⟩
  | .hbm, ⟨22, _⟩ => ⟨S160000x1, .i32⟩
  | .hbm, ⟨23, _⟩ => ⟨S50000x512, .f32⟩
  | .hbm, ⟨24, _⟩ => ⟨S50000x512, .f32⟩
  | .hbm, ⟨25, _⟩ => ⟨S512x512, .f32⟩
  | .hbm, ⟨26, _⟩ => ⟨S50000x512, .f32⟩
  | .hbm, ⟨27, _⟩ => ⟨S1x512, .f32⟩
  | .hbm, ⟨28, _⟩ => ⟨S50000x512, .f32⟩
  | .hbm, ⟨29, _⟩ => ⟨S50000x512, .f32⟩
  | .hbm, ⟨30, _⟩ => ⟨S_, .f32⟩
  | .hbm, ⟨31, _⟩ => ⟨S512, .f32⟩
  | .hbm, ⟨32, _⟩ => ⟨S_, .f32⟩
  | .hbm, ⟨33, _⟩ => ⟨S512, .f32⟩
  | .hbm, ⟨34, _⟩ => ⟨S512, .f32⟩
  | .hbm, ⟨35, _⟩ => ⟨S1x512, .f32⟩
  | .hbm, ⟨36, _⟩ => ⟨S50000x512, .f32⟩
  | .hbm, ⟨37, _⟩ => ⟨S50000x512, .f32⟩
  | .hbm, ⟨38, _⟩ => ⟨S50000x512, .f32⟩
  | .hbm, ⟨39, _⟩ => ⟨S_, .f32⟩
  | .hbm, ⟨40, _⟩ => ⟨S512, .f32⟩
  | .hbm, ⟨41, _⟩ => ⟨S_, .f32⟩
  | .hbm, ⟨42, _⟩ => ⟨S512, .f32⟩
  | .hbm, ⟨43, _⟩ => ⟨S512, .f32⟩
  | .hbm, ⟨44, _⟩ => ⟨S1x512, .f32⟩
  | .hbm, ⟨45, _⟩ => ⟨S50000x512, .f32⟩
  | .hbm, ⟨46, _⟩ => ⟨S50000x512, .f32⟩
  | .hbm, ⟨47, _⟩ => ⟨S1x512, .f32⟩
  | .hbm, ⟨48, _⟩ => ⟨S50000x512, .f32⟩
  | .hbm, ⟨49, _⟩ => ⟨S50000x512, .f32⟩
  | .hbm, ⟨50, _⟩ => ⟨S_, .f32⟩
  | .hbm, ⟨51, _⟩ => ⟨S512, .f32⟩
  | .hbm, ⟨52, _⟩ => ⟨S512, .f32⟩
  | .hbm, ⟨53, _⟩ => ⟨S512, .f32⟩
  | .hbm, ⟨54, _⟩ => ⟨S1x512, .f32⟩
  | .hbm, ⟨55, _⟩ => ⟨S50000x512, .f32⟩
  | .hbm, ⟨56, _⟩ => ⟨S50000x512, .f32⟩
  | .hbm, ⟨57, _⟩ => ⟨S1x512, .f32⟩
  | .hbm, ⟨58, _⟩ => ⟨S50000x512, .f32⟩
  | .hbm, ⟨59, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S50000x512 : S_.BroadcastsInDim S50000x512 (![] : Fin 0 → Fin S50000x512.rank)
  transposes_S512x512_S512x512_1_0 : S512x512.Transposes [1, 0] S512x512
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  reducesTo_S50000x512_S512_d0 : S50000x512.ReducesTo [0] S512
  h_S_ : 0 < S_.numel
  bcast_S_S512 : S_.BroadcastsInDim S512 (![] : Fin 0 → Fin S512.rank)
  gather_S50000x512_S160000x1_S160000x512_1_0_n_n_0_1_1512_wf : GatherDims.WF S50000x512 S160000x1 S160000x512 [1] [0] [] [0] [] 1 ![1, 512]
  scatter_S50000x512_S160000x1_S160000x512_1_0_0_1_wf : ScatterDims.WF S50000x512 S160000x1 S160000x512 [1] [0] [0] 1
  dot_S50000x512_S512x512_S50000x512_1_0_0_1_n_n_wf : DotDims.WF S50000x512 S512x512 S50000x512 [1] [0] [0] [1] [] []

variable [Facts₀]

def gather_S50000x512_S160000x1_S160000x512_1_0_n_n_0_1_1512 : GatherDims S50000x512 S160000x1 S160000x512 where
  offsetDims := [1]
  collapsedSliceDims := [0]
  operandBatchingDims := []
  startIndicesBatchingDims := []
  startIndexMap := [0]
  indexVectorDim := 1
  sliceSizes := ![1, 512]
  wf := gather_S50000x512_S160000x1_S160000x512_1_0_n_n_0_1_1512_wf
def scatter_S50000x512_S160000x1_S160000x512_1_0_0_1 : ScatterDims S50000x512 S160000x1 S160000x512 where
  updateWindowDims := [1]
  insertedWindowDims := [0]
  scatterDimsToOperandDims := [0]
  indexVectorDim := 1
  wf := scatter_S50000x512_S160000x1_S160000x512_1_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf

class Facts : Prop extends Facts₀ where

variable [Facts]
-- ==== Proof.Spec.lean ====
/-
  THE MATHEMATICS BOTH PROGRAMS COMPUTE, as functions of arrays over the extended reals.

  A graph layer followed by batch normalisation over the node axis. With h : [50000, 512] the aggregated node
  features, wt : [512, 512] the transposed weight and b, γ, β : [512]:

    z[n, j]     = (∑ k, h[n, k] · wt[k, j]) + b[j]                      (the linear layer, `lin`)
    mean[j]     = (∑ n, z[n, j]) / 50000                                (`mean`)
    out[n, j]   = γ[j] · (z[n, j] − mean[j]) · rsqrt(var[j] + ε) + β[j]  (`bn`)

  and the two programs differ only in the variance they put in: one takes the second moment minus the squared mean
  (`varMoment`), the other the mean of the squared deviations (`varCentred`). Over the reals these are one number
  (`var_eq`): ∑ (z − μ)² = ∑ z² − 2 μ ∑ z + N μ² and ∑ z = N μ. Over the extended reals the identity needs every
  z[n, j] to be a real number (with an infinite entry the two sides are −∞ and +∞), which is what `lin_real` provides
  from real h, wt and b. The divisor 50000 and ε are kept as the float words both programs print.
-/
import Idealize.ShloMosaic.PureOps.Ideal
import Idealize.ShloMosaic.Lib.ValueIdx

open scoped BigOperators

noncomputable section

namespace Cert.Bridge.BN

open Idealize.ShloMosaic Idealize.ShloMosaic.ValueIdx

/-- [nodes, features] -/
abbrev SNF : Shape := ⟨2, ![50000, 512]⟩
/-- [features, hidden] -/
abbrev SFH : Shape := ⟨2, ![512, 512]⟩
/-- a row [1, hidden] -/
abbrev S1H : Shape := ⟨2, ![1, 512]⟩
/-- a vector [hidden] -/
abbrev SH : Shape := ⟨1, ![512]⟩

/-- The number of nodes, as the float word both programs divide by (50000.0). -/
abbrev cN : EReal := Ideal.ofBits .f32 0x47435000#32
/-- The variance's ε, as the float word both programs add (the f32 nearest 1e-5). -/
abbrev cEps : EReal := Ideal.ofBits .f32 0x3727C5AC#32

/-- The linear layer at node `n`, output feature `j`. -/
def lin (h : SNF.Idx → EReal) (wt : SFH.Idx → EReal) (b : Fin 512 → EReal) (n : Fin 50000) (j : Fin 512) : EReal :=
  (∑ k : Fin 512, h (ix2 n k) * wt (ix2 k j)) + b j

/-- The mean of column `j` over the 50000 nodes. -/
def mean (z : Fin 50000 → Fin 512 → EReal) (j : Fin 512) : EReal := Ideal.div (∑ n : Fin 50000, z n j) cN

/-- The variance as second moment minus squared mean. -/
def varMoment (z : Fin 50000 → Fin 512 → EReal) (j : Fin 512) : EReal :=
  Ideal.div (∑ n : Fin 50000, z n j * z n j) cN - mean z j * mean z j

/-- The variance as the mean of the squared deviations from the mean. -/
def varCentred (z : Fin 50000 → Fin 512 → EReal) (j : Fin 512) : EReal :=
  Ideal.div (∑ n : Fin 50000, (z n j - mean z j) * (z n j - mean z j)) cN

/-- Batch normalisation of `z` with a given per-column variance `v`, scale `g` and shift `be`. -/
def bn (z : Fin 50000 → Fin 512 → EReal) (v g be : Fin 512 → EReal) (n : Fin 50000) (j : Fin 512) : EReal :=
  g j * (z n j - mean z j) * Ideal.rsqrt (v j + cEps) + be j

/-! ## The same, as whole arrays (what a buffer holds) -/

/-- Row 0 of a [1, 512] array as a function of the column. -/
abbrev row0 (r : S1H.Idx → EReal) : Fin 512 → EReal := fun j => r (ix2 (0 : Fin 1) j)
/-- A [512] vector as a function of its coordinate. -/
abbrev vec (r : SH.Idx → EReal) : Fin 512 → EReal := fun j => r (ix1 j)

/-- The linear layer's output array, the bias given as a [1, 512] row. -/
def zArr (h : SNF.Idx → EReal) (wt : SFH.Idx → EReal) (b2 : S1H.Idx → EReal) : SNF.Idx → EReal :=
  fun i => lin h wt (row0 b2) (i 0) (i 1)
/-- The column sums of an [50000, 512] array, as a [1, 512] row. -/
def colSumArr (z : SNF.Idx → EReal) : S1H.Idx → EReal := fun i => ∑ n : Fin 50000, z (ix2 n (i 1))
/-- The column sums of squares of an [50000, 512] array, as a [1, 512] row. -/
def colSumSqArr (z : SNF.Idx → EReal) : S1H.Idx → EReal := fun i => ∑ n : Fin 50000, z (ix2 n (i 1)) * z (ix2 n (i 1))
/-- The normalisation step alone, on arrays: γ · (z − μ) · s + β, the rows broadcast down the node axis. -/
def bnApplyArr (z : SNF.Idx → EReal) (mu s ga be : S1H.Idx → EReal) : SNF.Idx → EReal :=
  fun i => row0 ga (i 1) * (z i - row0 mu (i 1)) * row0 s (i 1) + row0 be (i 1)

/-! ## The two laws -/

/-- The divisor is the real number 50000. -/
theorem cN_eq : cN = ((50000 : ℝ) : EReal) := by
  simp [Ideal.ofBits, Ideal.ieee, -EReal.coe_mul]; norm_num

/-- The coercion of the reals into the extended reals commutes with finite sums. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: the mean of the squared deviations is the second moment minus the squared mean.
    ∑ (x − μ)² = ∑ x² − 2 μ ∑ x + N μ², and with μ = (∑ x)/N the last two terms collapse to −N μ². -/
private theorem var_real (x : Fin 50000 → ℝ) :
    (∑ n, x n * x n) * (1 / 50000) - ((∑ n, x n) * (1 / 50000)) * ((∑ n, x n) * (1 / 50000))
      = (∑ n, (x n - (∑ n, x n) * (1 / 50000)) * (x n - (∑ n, x n) * (1 / 50000))) * (1 / 50000) := by
  obtain ⟨S, hS⟩ : ∃ S : ℝ, (∑ n, x n) = S := ⟨_, rfl⟩
  obtain ⟨Q, hQ⟩ : ∃ Q : ℝ, (∑ n, x n * x n) = Q := ⟨_, rfl⟩
  rw [hS, hQ]
  obtain ⟨μ, hμ⟩ : ∃ μ : ℝ, S * (1 / 50000) = μ := ⟨_, rfl⟩
  rw [hμ]
  have hexp : ∀ n, (x n - μ) * (x n - μ) = x n * x n - (2 * μ) * x n + μ * μ := fun n => by ring
  have hsum : (∑ n, (x n - μ) * (x n - μ)) = Q - (2 * μ) * S + 50000 * (μ * μ) := by
    simp only [hexp]
    rw [Finset.sum_add_distrib, Finset.sum_sub_distrib, ← Finset.mul_sum, Finset.sum_const,
      Finset.card_univ, Fintype.card_fin, nsmul_eq_mul, hS, hQ, Nat.cast_ofNat]
  rw [hsum, ← hμ]
  ring

/-- With every entry of `z` real, the two variances are one number. -/
theorem var_eq (z : Fin 50000 → Fin 512 → EReal) (hz : ∀ n j, ∃ r : ℝ, z n j = (r : EReal)) (j : Fin 512) :
    varMoment z j = varCentred z j := by
  choose r hr using hz
  have hN : (50000 : ℝ) ≠ 0 := by norm_num
  have hmean : mean z j = (((∑ n, r n j) * (1 / 50000) : ℝ) : EReal) := by
    unfold mean
    rw [cN_eq, Ideal.div_coe hN]
    simp only [hr]
    rw [← coe_sum, ← EReal.coe_mul]
  unfold varMoment varCentred
  rw [hmean, cN_eq, Ideal.div_coe hN, Ideal.div_coe hN]
  simp only [hr]
  simp only [← EReal.coe_mul, ← EReal.coe_sub, ← coe_sum]
  rw [var_real (fun n => r n j)]

/-- The linear layer of real arrays is real. -/
theorem lin_real (h : SNF.Idx → EReal) (wt : SFH.Idx → EReal) (b : Fin 512 → EReal)
    (hh : ∀ i, ∃ r : ℝ, h i = (r : EReal)) (hw : ∀ i, ∃ r : ℝ, wt i = (r : EReal)) (hb : ∀ j, ∃ r : ℝ, b j = (r : EReal))
    (n : Fin 50000) (j : Fin 512) : ∃ r : ℝ, lin h wt b n j = (r : EReal) := by
  choose rh hrh using hh
  choose rw hrw using hw
  choose rb hrb using hb
  refine ⟨(∑ k : Fin 512, rh (ix2 n k) * rw (ix2 k j)) + rb j, ?_⟩
  unfold lin
  simp only [hrh, hrw, hrb]
  rw [EReal.coe_add, coe_sum]
  simp only [EReal.coe_mul]

end Cert.Bridge.BN

end
-- ==== Proof.LibBlockSum.lean ====
/-
  Two facts about finite sums in a commutative monoid, used to compare an inner product accumulated block by
  block with the same inner product taken in one pass.  Neither needs the summands to be finite numbers:
  only that addition is associative and commutative (as it is on the extended reals).
-/
import Mathlib.Algebra.BigOperators.Fin
import Mathlib.Algebra.BigOperators.Intervals
import Mathlib.Logic.Equiv.Fin.Basic

namespace Cert.BlockSum

open Finset

/-- A sum over `n = nb * b` indices is the sum over the `nb` blocks of the sums over each block's `b` indices;
    index `kk` of block `kb` is `kb * b + kk`. -/
theorem sum_blocks {M : Type*} [AddCommMonoid M] {n : ℕ} (nb b : ℕ) (h : n = nb * b) (f : Fin n → M) :
    ∑ k : Fin n, f k
      = ∑ kb : Fin nb, ∑ kk : Fin b, f ⟨kb.val * b + kk.val, by
          subst h
          calc kb.val * b + kk.val < kb.val * b + b := Nat.add_lt_add_left kk.isLt _
            _ = (kb.val + 1) * b := (Nat.succ_mul _ _).symm
            _ ≤ nb * b := Nat.mul_le_mul_right _ kb.isLt⟩ := by
  subst h
  rw [← Fintype.sum_prod_type', ← (finProdFinEquiv (m := nb) (n := b)).sum_comp]
  refine Fintype.sum_congr _ _ fun p => ?_
  congr 1
  apply Fin.ext
  show p.2.val + b * p.1.val = p.1.val * b + p.2.val
  rw [Nat.mul_comm, Nat.add_comm]

/-- A running total that starts at the first term added to zero and then adds one term per step is, after step
    `k`, the sum of the terms `0 … k`. -/
theorem running_total {M : Type*} [AddCommMonoid M] (P a : ℕ → M) (h0 : a 0 = 0 + P 0)
    (hs : ∀ k, a (k + 1) = a k + P (k + 1)) (k : ℕ) : a k = ∑ i ∈ range (k + 1), P i := by
  induction k with
  | zero => rw [h0, zero_add, sum_range_one]
  | succ k ih => rw [hs, ih, sum_range_succ (fun i => P i) (k + 1)]

/-- The same total over all `nb` blocks, as a sum over `Fin nb`. -/
theorem running_total_last {M : Type*} [AddCommMonoid M] (nb : ℕ) (P a : ℕ → M) (h0 : a 0 = 0 + P 0)
    (hs : ∀ k, a (k + 1) = a k + P (k + 1)) : a nb = ∑ i : Fin (nb + 1), P i.val := by
  rw [running_total P a h0 hs nb, Fin.sum_univ_eq_sum_range (fun i => P i) (nb + 1)]

end Cert.BlockSum
-- ==== Proof.Region0Pay.lean ====
/-
  REGION 0's arithmetic, read at an index at the ideal instance. The body's three stored values as functions of the
  blocks it loads (x0 : a [2000, 512] block of features, x1 : the [512, 512] transposed weight, x2 : the [1, 512] bias
  row, xo : the [1, 512] running row it accumulates into):
    the layer's output block    z[r, j] = (∑ k, x0[r, k] · x1[k, j]) + x2[0, j]      (the format changes are the identity,
                                                                                     the matrix unit into a zero accumulator a plain sum),
    the running sum             xo[0, j] + ∑ r, z[r, j],
    the running sum of squares  xo[0, j] + ∑ r, z[r, j] · z[r, j].
-/
import proofs.«181668_j10969346474303_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.KernelIdeal.Region0Pay

open Idealize.ShloMosaic Idealize.ShloMosaic.TcCoe Idealize.ShloMosaic.ValueIdx
open Cert.KernelIdeal Cert.KernelIdeal.Gen

/-- One block of the linear layer: row `r` of the feature block against column `j` of the weight, plus the bias. -/
def zBlk (x0 : Vec Ideal S2000x512 .f32) (x1 : Vec Ideal S512x512 .f32) (x2 : Vec Ideal S1x512 .f32)
    (r : Fin 2000) (j : Fin 512) : EReal :=
  (∑ k : Fin 512, x0 (ix2 r k) * x1 (ix2 k j)) + x2 (ix2 (0 : Fin 1) j)

/-! ## The matrix unit's operand indices, axis by axis -/

private theorem lhs_mm_0 (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
private theorem lhs_mm_1 (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
private theorem rhs_mm_0 (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
private theorem rhs_mm_1 (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- The matrix unit into a zero accumulator, read at (r, j): the plain sum over the contracted coordinate. -/
private theorem mm_apply {φ₁ φ₂ : FTy} (y0 : FVec Ideal S2000x512 φ₁) (y1 : FVec Ideal S512x512 φ₂) (r : Fin 2000) (j : Fin 512) :
    matmul (F := Ideal) dot_S2000x512_S512x512_S2000x512_1_0_0_1_n_n none y0 y1 (constant (F := Ideal) S2000x512 .f32 0x00000000#32) (ix2 r j)
      = ∑ k : Fin 512, y0 (ix2 r k) * y1 (ix2 k j) := by
  simp only [matmul]
  rw [Ideal.matmul_constant_zero_apply, ← Equiv.sum_comp (ValueIdx.contrEquiv1 dot_S2000x512_S512x512_S2000x512_1_0_0_1_n_n 512 rfl rfl).symm]
  refine Finset.sum_congr rfl fun k _ => ?_
  have hk := ValueIdx.contrEquiv1_symm_val dot_S2000x512_S512x512_S2000x512_1_0_0_1_n_n 512 rfl rfl k
  have el : dot_S2000x512_S512x512_S2000x512_1_0_0_1_n_n.lhsIdx (ix2 r j) ((ValueIdx.contrEquiv1 dot_S2000x512_S512x512_S2000x512_1_0_0_1_n_n 512 rfl rfl).symm k) = ix2 r k := funext fun a => Fin.ext (by
    match a with
    | ⟨0, _⟩ => exact lhs_mm_0 _ _
    | ⟨1, _⟩ => exact (lhs_mm_1 _ _).trans hk)
  have er : dot_S2000x512_S512x512_S2000x512_1_0_0_1_n_n.rhsIdx (ix2 r j) ((ValueIdx.contrEquiv1 dot_S2000x512_S512x512_S2000x512_1_0_0_1_n_n 512 rfl rfl).symm k) = ix2 k j := funext fun a => Fin.ext (by
    match a with
    | ⟨0, _⟩ => exact (rhs_mm_0 _ _).trans hk
    | ⟨1, _⟩ => exact rhs_mm_1 _ _)
  rw [el, er]

/-- The sum over the rows of a [2000, 512] block, read at column j. -/
private theorem colsum_apply (src : FVec Ideal S2000x512 .f32) (hφ : FKind.Formats .f32)
    (hacc : (0x00000000#32 : BitVec 32) = 0x00000000#32) (j : Fin 512) :
    multiReduction (F := Ideal) .add [0] S512 src 0x00000000#32 reduces_S2000x512_S512 hφ hacc (ix1 j)
      = ∑ r : Fin 2000, src (ix2 r j) := by
  refine (Ideal.multiReduction_add_single src 0x00000000#32 reduces_S2000x512_S512 hφ hacc (ix1 j)).trans ?_
  refine Finset.sum_congr rfl fun r _ => congrArg src ?_
  funext a
  apply Fin.ext
  match a with
  | ⟨0, _⟩ => rfl
  | ⟨1, _⟩ => rfl

/-- The stored output block at (r, j). -/
theorem pay3_apply (x0 : Vec Ideal S2000x512 .f32) (x1 : Vec Ideal S512x512 .f32) (x2 : Vec Ideal S1x512 .f32)
    (r : Fin 2000) (j : Fin 512) :
    k0_pay3 (F := Ideal) x0 x1 x2 (ix2 r j) = zBlk x0 x1 x2 r j := by
  unfold k0_pay3 zBlk
  simp only [shapeCast_self]
  rw [addf_apply, mm_apply, broadcastTo_1b_ab_apply]
  rfl

/-- The stored running sum at (0, j): what the row held plus the block's column sum. -/
theorem pay4_apply (x0 : Vec Ideal S2000x512 .f32) (x1 : Vec Ideal S512x512 .f32) (x2 xo : Vec Ideal S1x512 .f32)
    (j : Fin 512) :
    k0_pay4 (F := Ideal) x0 x1 x2 xo (ix2 (0 : Fin 1) j) = xo (ix2 (0 : Fin 1) j) + ∑ r : Fin 2000, zBlk x0 x1 x2 r j := by
  unfold k0_pay4
  simp only [shapeCast_self]
  rw [addf_apply, shapeCast_a_1a_apply, colsum_apply]
  exact congrArg _ (Finset.sum_congr rfl fun r _ => pay3_apply x0 x1 x2 r j)

/-- The stored running sum of squares at (0, j): what the row held plus the block's column sum of squares. -/
theorem pay5_apply (x0 : Vec Ideal S2000x512 .f32) (x1 : Vec Ideal S512x512 .f32) (x2 xo : Vec Ideal S1x512 .f32)
    (j : Fin 512) :
    k0_pay5 (F := Ideal) x0 x1 x2 xo (ix2 (0 : Fin 1) j)
      = xo (ix2 (0 : Fin 1) j) + ∑ r : Fin 2000, zBlk x0 x1 x2 r j * zBlk x0 x1 x2 r j := by
  unfold k0_pay5
  simp only [shapeCast_self]
  rw [addf_apply, shapeCast_a_1a_apply, colsum_apply]
  refine congrArg _ (Finset.sum_congr rfl fun r _ => ?_)
  rw [mulf_apply, pay3_apply]

/-- The zero row the first point stores into both running rows. -/
theorem pay1_apply (i : S1x512.Idx) : k0_pay1 (F := Ideal) i = 0 := by
  unfold k0_pay1
  exact Ideal.ofBits_zero_f32
theorem pay2_apply (i : S1x512.Idx) : k0_pay2 (F := Ideal) i = 0 := by
  unfold k0_pay2
  exact Ideal.ofBits_zero_f32

end Cert.KernelIdeal.Region0Pay

end
-- ==== Proof.Region0.lean ====
/-
  REGION 0 (the linear layer with its running column statistics), read as values at the ideal instance.
  For ANY contents `V` of the buffers when the region is entered, the three result arrays after its 25 grid points:
  the layer's output z (each point writes its own block of 2000 rows), the column sums of z, and the column sums of z²
  (both accumulated in a block every point revisits: reset at point 0, written back after point 24).
-/
import proofs.«181668_j10969346474303_1_alg».proof.Proof.Gen.KernelIdeal.Frame
import proofs.«181668_j10969346474303_1_alg».proof.Proof.Spec
import proofs.«181668_j10969346474303_1_alg».proof.Proof.LibBlockSum
import proofs.«181668_j10969346474303_1_alg».proof.Proof.Region0Pay
import Idealize.ShloMosaic.Lib.Pipeline.Value
import Idealize.ShloMosaic.Lib.ValueLayout
import Idealize.ShloMosaic.PureOps.Ideal.Laws
import Idealize.ShloMosaic.Lib.Tactic

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.Bridge.BN

/-- The zero offsets of a whole-buffer access. -/
theorem hz : (![0, 0] : Fin 2 → Nat) = fun _ => 0 := funext fun a => by fin_cases a <;> rfl

/-! ## The six case values: what each control case leaves in each output's buffer, as the stored payloads -/

section Pieces
variable {F : FTy → Type} [FloatOps F]

/-- At a later point the body's one store into the first buffer is the block of z. -/
theorem out_B_3 (c : Dev nD) (i : grid0.Coords) (a1 : Memref sig .tc .vmem S2000x512 .f32) (h1 : a1.IsWhole) (a2 : Memref sig .tc .vmem S512x512 .f32) (h2 : a2.IsWhole) (a3 : Memref sig .tc .vmem S1x512 .f32) (h3 : a3.IsWhole) (a4 : Memref sig .tc .vmem S2000x512 .f32) (h4 : a4.IsWhole) (a5 : Memref sig .tc .vmem S1x512 .f32) (h5 : a5.IsWhole) (a6 : Memref sig .tc .vmem S1x512 .f32) (h6 : a6.IsWhole) (hc : ¬cond0_0 i)
    (x0 : Vec F S2000x512 .f32) (x1 : Vec F S512x512 .f32) (x2 : Vec F S1x512 .f32) (xo4 xo5 : Vec F S1x512 .f32) :
    out0_B_3 c i a1 h1 a2 h2 a3 h3 a4 h4 a5 h5 a6 h6 hc x0 x1 x2 xo4 xo5 = k0_pay3 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  sl_unfold_words
  rw [View.canon_unit_zero hz]
  simp only [View.readAt_eq_ld, h1.read_unread, h2.read_unread, h3.read_unread, h5.read_unread, h6.read_unread,
    View.ld_unit_zero (S := S2000x512) hz, View.ld_unit_zero (S := S512x512) hz, View.ld_unit_zero (S := S1x512) hz]

/-- At a later point the body's one store into the row of sums is the row it held plus the block's column sums. -/
theorem out_B_4 (c : Dev nD) (i : grid0.Coords) (a1 : Memref sig .tc .vmem S2000x512 .f32) (h1 : a1.IsWhole) (a2 : Memref sig .tc .vmem S512x512 .f32) (h2 : a2.IsWhole) (a3 : Memref sig .tc .vmem S1x512 .f32) (h3 : a3.IsWhole) (a4 : Memref sig .tc .vmem S2000x512 .f32) (h4 : a4.IsWhole) (a5 : Memref sig .tc .vmem S1x512 .f32) (h5 : a5.IsWhole) (a6 : Memref sig .tc .vmem S1x512 .f32) (h6 : a6.IsWhole) (hc : ¬cond0_0 i)
    (x0 : Vec F S2000x512 .f32) (x1 : Vec F S512x512 .f32) (x2 : Vec F S1x512 .f32) (xo4 xo5 : Vec F S1x512 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  sl_unfold_words
  rw [View.canon_unit_zero hz]
  simp only [View.readAt_eq_ld, h1.read_unread, h2.read_unread, h3.read_unread, h5.read_unread, h6.read_unread,
    View.ld_unit_zero (S := S2000x512) hz, View.ld_unit_zero (S := S512x512) hz, View.ld_unit_zero (S := S1x512) hz]

/-- At a later point the body's one store into the row of sums of squares is the row it held plus the block's column sums of squares. -/
theorem out_B_5 (c : Dev nD) (i : grid0.Coords) (a1 : Memref sig .tc .vmem S2000x512 .f32) (h1 : a1.IsWhole) (a2 : Memref sig .tc .vmem S512x512 .f32) (h2 : a2.IsWhole) (a3 : Memref sig .tc .vmem S1x512 .f32) (h3 : a3.IsWhole) (a4 : Memref sig .tc .vmem S2000x512 .f32) (h4 : a4.IsWhole) (a5 : Memref sig .tc .vmem S1x512 .f32) (h5 : a5.IsWhole) (a6 : Memref sig .tc .vmem S1x512 .f32) (h6 : a6.IsWhole) (hc : ¬cond0_0 i)
    (x0 : Vec F S2000x512 .f32) (x1 : Vec F S512x512 .f32) (x2 : Vec F S1x512 .f32) (xo4 xo5 : Vec F S1x512 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  sl_unfold_words
  rw [View.canon_unit_zero hz]
  simp only [View.readAt_eq_ld, h1.read_unread, h2.read_unread, h3.read_unread, h5.read_unread, h6.read_unread,
    View.ld_unit_zero (S := S2000x512) hz, View.ld_unit_zero (S := S512x512) hz, View.ld_unit_zero (S := S1x512) hz]

/-- At the first point the body's one store into the first buffer is the block of z. -/
theorem out_A_3 (c : Dev nD) (i : grid0.Coords) (a1 : Memref sig .tc .vmem S2000x512 .f32) (h1 : a1.IsWhole) (a2 : Memref sig .tc .vmem S512x512 .f32) (h2 : a2.IsWhole) (a3 : Memref sig .tc .vmem S1x512 .f32) (h3 : a3.IsWhole) (a4 : Memref sig .tc .vmem S2000x512 .f32) (h4 : a4.IsWhole) (a5 : Memref sig .tc .vmem S1x512 .f32) (h5 : a5.IsWhole) (a6 : Memref sig .tc .vmem S1x512 .f32) (h6 : a6.IsWhole) (hc : cond0_0 i)
    (x0 : Vec F S2000x512 .f32) (x1 : Vec F S512x512 .f32) (x2 : Vec F S1x512 .f32) :
    out0_A_3 c i a1 h1 a2 h2 a3 h3 a4 h4 a5 h5 a6 h6 hc x0 x1 x2 = k0_pay3 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  sl_unfold_words
  rw [View.canon_unit_zero hz]
  simp only [View.readAt_eq_ld, h1.read_unread, h2.read_unread, h3.read_unread, h5.read_unread, h6.read_unread,
    View.ld_unit_zero (S := S2000x512) hz, View.ld_unit_zero (S := S512x512) hz, View.ld_unit_zero (S := S1x512) hz]

/-- At the first point the body stores the zero row into the row of sums, reads it back, and stores it plus the block's column sums. -/
theorem out_A_4 (c : Dev nD) (i : grid0.Coords) (a1 : Memref sig .tc .vmem S2000x512 .f32) (h1 : a1.IsWhole) (a2 : Memref sig .tc .vmem S512x512 .f32) (h2 : a2.IsWhole) (a3 : Memref sig .tc .vmem S1x512 .f32) (h3 : a3.IsWhole) (a4 : Memref sig .tc .vmem S2000x512 .f32) (h4 : a4.IsWhole) (a5 : Memref sig .tc .vmem S1x512 .f32) (h5 : a5.IsWhole) (a6 : Memref sig .tc .vmem S1x512 .f32) (h6 : a6.IsWhole) (hc : cond0_0 i)
    (x0 : Vec F S2000x512 .f32) (x1 : Vec F S512x512 .f32) (x2 : Vec F S1x512 .f32) :
    out0_A_4 c i a1 h1 a2 h2 a3 h3 a4 h4 a5 h5 a6 h6 hc x0 x1 x2 = k0_pay4 x0 x1 x2 k0_pay1 := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x512) hz, View.readCov_unit_zero (S := S1x512) _ hz]
  simp only [View.readAt_eq_ld, h1.read_unread, h2.read_unread, h3.read_unread, h5.read_unread, h6.read_unread,
    View.ld_unit_zero (S := S2000x512) hz, View.ld_unit_zero (S := S512x512) hz, View.ld_unit_zero (S := S1x512) hz]

/-- At the first point the body stores the zero row into the row of sums of squares, reads it back, and stores it plus the block's column sums of squares. -/
theorem out_A_5 (c : Dev nD) (i : grid0.Coords) (a1 : Memref sig .tc .vmem S2000x512 .f32) (h1 : a1.IsWhole) (a2 : Memref sig .tc .vmem S512x512 .f32) (h2 : a2.IsWhole) (a3 : Memref sig .tc .vmem S1x512 .f32) (h3 : a3.IsWhole) (a4 : Memref sig .tc .vmem S2000x512 .f32) (h4 : a4.IsWhole) (a5 : Memref sig .tc .vmem S1x512 .f32) (h5 : a5.IsWhole) (a6 : Memref sig .tc .vmem S1x512 .f32) (h6 : a6.IsWhole) (hc : cond0_0 i)
    (x0 : Vec F S2000x512 .f32) (x1 : Vec F S512x512 .f32) (x2 : Vec F S1x512 .f32) :
    out0_A_5 c i a1 h1 a2 h2 a3 h3 a4 h4 a5 h5 a6 h6 hc x0 x1 x2 = k0_pay5 x0 x1 x2 k0_pay2 := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x512) hz, View.readCov_unit_zero (S := S1x512) _ hz]
  simp only [View.readAt_eq_ld, h1.read_unread, h2.read_unread, h3.read_unread, h5.read_unread, h6.read_unread,
    View.ld_unit_zero (S := S2000x512) hz, View.ld_unit_zero (S := S512x512) hz, View.ld_unit_zero (S := S1x512) hz]

end Pieces

variable (V : (c : Dev nD) → (b : Ref sig .tc) → Buf (Elt Ideal) ((c : Thread nD τ).loc b))

/-! ## The blocks the points read, and the arrays they are blocks of -/

/-- The feature block of point `t`: 2000 rows of the aggregated features. -/
abbrev xblk (c : Dev nD) (t : Fin cfg0.N) : Vec Ideal S2000x512 .f32 := iblk0 V c 0 t
/-- The weight as point `t` reads it (the whole array at every point). -/
abbrev wblk (c : Dev nD) (t : Fin cfg0.N) : Vec Ideal S512x512 .f32 := iblk0 V c 1 t
/-- The bias row as point `t` reads it (the whole array at every point). -/
abbrev bblk (c : Dev nD) (t : Fin cfg0.N) : Vec Ideal S1x512 .f32 := iblk0 V c 2 t
/-- The aggregated features [50000, 512]. -/
abbrev xarr (c : Dev nD) : Vec Ideal S50000x512 .f32 := V c main_v14
/-- The transposed weight [512, 512]. -/
abbrev warr (c : Dev nD) : Vec Ideal S512x512 .f32 := V c main_v15
/-- The bias row [1, 512]. -/
abbrev barr (c : Dev nD) : Vec Ideal S1x512 .f32 := V c main_v16

/-- The block index of the feature window at point `t` is `(t, 0)`; of the weight and the bias `(0, 0)`. -/
theorem index0 : ∀ t : Fin cfg0.N, (win0_0.index t 0 = t.val ∧ win0_0.index t 1 = 0)
    ∧ (win0_1.index t 0 = 0 ∧ win0_1.index t 1 = 0) ∧ (win0_2.index t 0 = 0 ∧ win0_2.index t 1 = 0) :=
  (by decide +kernel : ∀ t : Fin grid0.N, (win0_0.index t 0 = t.val ∧ win0_0.index t 1 = 0)
    ∧ (win0_1.index t 0 = 0 ∧ win0_1.index t 1 = 0) ∧ (win0_2.index t 0 = 0 ∧ win0_2.index t 1 = 0))

/-- Row `r` of point `t`'s feature block is row `2000 t + r` of the features. -/
theorem xblk_apply (c : Dev nD) (t : Fin cfg0.N) (r : Fin 2000) (k : Fin 512) (h : t.val * 2000 + r.val < 50000) :
    xblk V c t (ix2 r k) = xarr V c (ix2 ⟨t.val * 2000 + r.val, h⟩ k) := by
  have hi := (index0 t).1
  show iblk0 V c 0 t (ix2 r k) = V c main_v14 _
  unfold iblk0
  rw [View.read_apply]
  show V c main_v14 _ = V c main_v14 _
  congr 1
  funext a
  apply Fin.ext
  match a with
  | ⟨0, _⟩ => show win0_0.index t 0 * 2000 + 1 * r.val = t.val * 2000 + r.val; rw [hi.1]; omega
  | ⟨1, _⟩ => show win0_0.index t 1 * 512 + 1 * k.val = k.val; rw [hi.2]; omega

/-- The weight block is the whole weight at every point. -/
theorem wblk_eq (c : Dev nD) (t : Fin cfg0.N) : wblk V c t = warr V c := by
  have hi := (index0 t).2.1
  funext j
  show iblk0 V c 1 t j = V c main_v15 j
  unfold iblk0
  rw [View.read_apply]
  show V c main_v15 _ = V c main_v15 _
  congr 1
  funext a
  apply Fin.ext
  match a with
  | ⟨0, _⟩ => show win0_1.index t 0 * 512 + 1 * (j 0).val = (j 0).val; rw [hi.1]; omega
  | ⟨1, _⟩ => show win0_1.index t 1 * 512 + 1 * (j 1).val = (j 1).val; rw [hi.2]; omega

/-- The bias block is the whole bias row at every point. -/
theorem bblk_eq (c : Dev nD) (t : Fin cfg0.N) : bblk V c t = barr V c := by
  have hi := (index0 t).2.2
  funext j
  show iblk0 V c 2 t j = V c main_v16 j
  unfold iblk0
  rw [View.read_apply]
  show V c main_v16 _ = V c main_v16 _
  congr 1
  funext a
  apply Fin.ext
  match a with
  | ⟨0, _⟩ => show win0_2.index t 0 * 1 + 1 * (j 0).val = (j 0).val; rw [hi.1]; omega
  | ⟨1, _⟩ => show win0_2.index t 1 * 512 + 1 * (j 1).val = (j 1).val; rw [hi.2]; omega

/-! ## The invariant: what the three buffers hold after each point -/

open Cert.KernelIdeal.Region0Pay

/-- Row `r` of block `n` is a row of the array. -/
theorem row_lt (n : ℕ) (hn : n < 25) (r : Fin 2000) : n * 2000 + r.val < 50000 := by
  have := r.isLt; omega

/-- A point's index is below 25. -/
theorem lt25 (t : Fin cfg0.N) : t.val < 25 := lt_of_lt_of_eq t.isLt (show cfg0.N = 25 from N_0)

/-- The layer on point `t`'s blocks at (r, j) is the layer on the arrays at row `2000 t + r`. -/
theorem zBlk_eq (c : Dev nD) (t : Fin cfg0.N) (r : Fin 2000) (j : Fin 512) :
    zBlk (xblk V c t) (wblk V c t) (bblk V c t) r j
      = lin (xarr V c) (warr V c) (row0 (barr V c)) ⟨t.val * 2000 + r.val, row_lt t.val (lt25 t) r⟩ j := by
  unfold zBlk lin
  rw [wblk_eq V c t, bblk_eq V c t]
  congr 1
  exact Finset.sum_congr rfl fun k _ => by rw [xblk_apply V c t r k (row_lt t.val (lt25 t) r)]

/-- After every point the first buffer holds that point's block of z (both control cases store it). -/
theorem outs_z (c : Dev nD) (t : Fin cfg0.N) :
    (outsAt0 V c t.val t.isLt).1 = k0_pay3 (F := Ideal) (xblk V c t) (wblk V c t) (bblk V c t) := by
  by_cases h0 : t.val % 25 = 0
  · rw [outsAt0_A V c t h0]; dsimp only
    exact out_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)
  · rw [outsAt0_B V c t h0]; dsimp only
    exact out_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t)
      (outsAt0 V c (t.val - 1) (Nat.lt_of_le_of_lt (Nat.sub_le _ _) t.isLt)).2.1
      (outsAt0 V c (t.val - 1) (Nat.lt_of_le_of_lt (Nat.sub_le _ _) t.isLt)).2.2

/-- The sum of column `j` of z over the 2000 rows of block `n` (zero past the grid). -/
def blkSum (c : Dev nD) (j : Fin 512) (n : ℕ) : EReal :=
  if hn : n < 25 then ∑ r : Fin 2000, lin (xarr V c) (warr V c) (row0 (barr V c)) ⟨n * 2000 + r.val, row_lt n hn r⟩ j else 0

/-- The sum of squares of column `j` of z over the 2000 rows of block `n` (zero past the grid). -/
def blkSumSq (c : Dev nD) (j : Fin 512) (n : ℕ) : EReal :=
  if hn : n < 25 then ∑ r : Fin 2000, lin (xarr V c) (warr V c) (row0 (barr V c)) ⟨n * 2000 + r.val, row_lt n hn r⟩ j
    * lin (xarr V c) (warr V c) (row0 (barr V c)) ⟨n * 2000 + r.val, row_lt n hn r⟩ j else 0

/-- What point `t` adds to the running sum is its block's column sum. -/
theorem blkSum_eq (c : Dev nD) (t : Fin cfg0.N) (j : Fin 512) :
    ∑ r : Fin 2000, zBlk (xblk V c t) (wblk V c t) (bblk V c t) r j = blkSum V c j t.val := by
  unfold blkSum
  rw [dif_pos (lt25 t)]
  exact Finset.sum_congr rfl fun r _ => zBlk_eq V c t r j

/-- What point `t` adds to the running sum of squares is its block's column sum of squares. -/
theorem blkSumSq_eq (c : Dev nD) (t : Fin cfg0.N) (j : Fin 512) :
    ∑ r : Fin 2000, zBlk (xblk V c t) (wblk V c t) (bblk V c t) r j * zBlk (xblk V c t) (wblk V c t) (bblk V c t) r j
      = blkSumSq V c j t.val := by
  unfold blkSumSq
  rw [dif_pos (lt25 t)]
  exact Finset.sum_congr rfl fun r _ => by rw [zBlk_eq V c t r j]

/-- After point `n` the running row of sums holds, in column `j`, the column sums of the blocks `0 … n`. -/
theorem outs_sum (c : Dev nD) (j : Fin 512) : ∀ (n : ℕ) (h : n < cfg0.N),
    (outsAt0 V c n h).2.1 (ix2 (0 : Fin 1) j) = ∑ i ∈ Finset.range (n + 1), blkSum V c j i
  | 0, h => by
    rw [outsAt0_A V c ⟨0, h⟩ rfl]; dsimp only
    refine (congrFun (out_A_4 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr rfl) (iblk0 V c 0 ⟨0, h⟩) (iblk0 V c 1 ⟨0, h⟩) (iblk0 V c 2 ⟨0, h⟩)) (ix2 (0 : Fin 1) j)).trans ?_
    refine (pay4_apply (xblk V c ⟨0, h⟩) (wblk V c ⟨0, h⟩) (bblk V c ⟨0, h⟩) (k0_pay1 (F := Ideal)) j).trans ?_
    rw [pay1_apply, zero_add, Finset.sum_range_one]
    exact blkSum_eq V c ⟨0, h⟩ j
  | n + 1, h => by
    have hB : ¬(⟨n + 1, h⟩ : Fin cfg0.N).val % 25 = 0 := by have := lt25 ⟨n + 1, h⟩; dsimp only at this ⊢; omega
    rw [outsAt0_B V c ⟨n + 1, h⟩ hB]; dsimp only
    refine (congrFun (out_B_4 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun h' => hB ((hcond0_0 ⟨n + 1, h⟩).mp h')) (iblk0 V c 0 ⟨n + 1, h⟩) (iblk0 V c 1 ⟨n + 1, h⟩) (iblk0 V c 2 ⟨n + 1, h⟩)
      (outsAt0 V c n (Nat.lt_of_succ_lt h)).2.1 (outsAt0 V c n (Nat.lt_of_succ_lt h)).2.2) (ix2 (0 : Fin 1) j)).trans ?_
    refine (pay4_apply (xblk V c ⟨n + 1, h⟩) (wblk V c ⟨n + 1, h⟩) (bblk V c ⟨n + 1, h⟩) (outsAt0 V c n (Nat.lt_of_succ_lt h)).2.1 j).trans ?_
    rw [outs_sum c j n (Nat.lt_of_succ_lt h), Finset.sum_range_succ (fun i => blkSum V c j i) (n + 1)]
    exact congrArg _ (blkSum_eq V c ⟨n + 1, h⟩ j)

/-- After point `n` the running row of sums of squares holds, in column `j`, the column sums of squares of the blocks `0 … n`. -/
theorem outs_sumsq (c : Dev nD) (j : Fin 512) : ∀ (n : ℕ) (h : n < cfg0.N),
    (outsAt0 V c n h).2.2 (ix2 (0 : Fin 1) j) = ∑ i ∈ Finset.range (n + 1), blkSumSq V c j i
  | 0, h => by
    rw [outsAt0_A V c ⟨0, h⟩ rfl]; dsimp only
    refine (congrFun (out_A_5 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr rfl) (iblk0 V c 0 ⟨0, h⟩) (iblk0 V c 1 ⟨0, h⟩) (iblk0 V c 2 ⟨0, h⟩)) (ix2 (0 : Fin 1) j)).trans ?_
    refine (pay5_apply (xblk V c ⟨0, h⟩) (wblk V c ⟨0, h⟩) (bblk V c ⟨0, h⟩) (k0_pay2 (F := Ideal)) j).trans ?_
    rw [pay2_apply, zero_add, Finset.sum_range_one]
    exact blkSumSq_eq V c ⟨0, h⟩ j
  | n + 1, h => by
    have hB : ¬(⟨n + 1, h⟩ : Fin cfg0.N).val % 25 = 0 := by have := lt25 ⟨n + 1, h⟩; dsimp only at this ⊢; omega
    rw [outsAt0_B V c ⟨n + 1, h⟩ hB]; dsimp only
    refine (congrFun (out_B_5 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun h' => hB ((hcond0_0 ⟨n + 1, h⟩).mp h')) (iblk0 V c 0 ⟨n + 1, h⟩) (iblk0 V c 1 ⟨n + 1, h⟩) (iblk0 V c 2 ⟨n + 1, h⟩)
      (outsAt0 V c n (Nat.lt_of_succ_lt h)).2.1 (outsAt0 V c n (Nat.lt_of_succ_lt h)).2.2) (ix2 (0 : Fin 1) j)).trans ?_
    refine (pay5_apply (xblk V c ⟨n + 1, h⟩) (wblk V c ⟨n + 1, h⟩) (bblk V c ⟨n + 1, h⟩) (outsAt0 V c n (Nat.lt_of_succ_lt h)).2.2 j).trans ?_
    rw [outs_sumsq c j n (Nat.lt_of_succ_lt h), Finset.sum_range_succ (fun i => blkSumSq V c j i) (n + 1)]
    exact congrArg _ (blkSumSq_eq V c ⟨n + 1, h⟩ j)

/-! ## The three result arrays after the region -/

/-- The array z as the specification writes it. -/
abbrev zG (c : Dev nD) : Vec Ideal S50000x512 .f32 := zArr (V c main_v14) (V c main_v15) (V c main_v16)

/-- The block index of the z window at point `t` is `(t, 0)`; of the two rows of sums `(0, 0)`. -/
theorem index0_out : ∀ t : Fin cfg0.N, (win0_3.index t 0 = t.val ∧ win0_3.index t 1 = 0)
    ∧ (win0_4.index t 0 = 0 ∧ win0_4.index t 1 = 0) ∧ (win0_5.index t 0 = 0 ∧ win0_5.index t 1 = 0) :=
  (by decide +kernel : ∀ t : Fin grid0.N, (win0_3.index t 0 = t.val ∧ win0_3.index t 1 = 0)
    ∧ (win0_4.index t 0 = 0 ∧ win0_4.index t 1 = 0) ∧ (win0_5.index t 0 = 0 ∧ win0_5.index t 1 = 0))

/-- Point `t`'s block of a [50000, 512] result array at (r, k) is the array at row `2000 t + r`. -/
theorem blk3_read (c : Dev nD) (t : Fin cfg0.N) (G : Buf (Elt Ideal) ((c : Thread nD τ).loc main_v19_0)) (r : Fin 2000) (k : Fin 512)
    (h : t.val * 2000 + r.val < 50000) :
    ((cfg0.win 3).blk t).view.read (Elt Ideal) G (ix2 r k) = G (ix2 ⟨t.val * 2000 + r.val, h⟩ k) := by
  have hi := (index0_out t).1
  rw [View.read_apply]
  refine congrArg G ?_
  funext a
  apply Fin.ext
  match a with
  | ⟨0, _⟩ => show win0_3.index t 0 * 2000 + 1 * r.val = t.val * 2000 + r.val; rw [hi.1]; omega
  | ⟨1, _⟩ => show win0_3.index t 1 * 512 + 1 * k.val = k.val; rw [hi.2]; omega

/-- Every point writes back its block of z. -/
theorem flushed_z (c : Dev nD) (t : Fin cfg0.N) (hf : (cfg0.win 3).flush t = true) :
    (dat0 V c).flushed 3 t = ((cfg0.win 3).blk t).view.read (Elt Ideal) (zG V c) := by
  show (cfg0.win 3).cut (grid0.coords t) ((dat0 V c).after 3 t) = _
  rw [after0_3, outs_z]
  refine funext fun (y : S2000x512.Idx) => ?_
  show k0_pay3 (F := Ideal) (xblk V c t) (wblk V c t) (bblk V c t) y = ((cfg0.win 3).blk t).view.read (Elt Ideal) (zG V c) y
  obtain ⟨r, k, rfl⟩ : ∃ r k, y = ix2 r k := ⟨y 0, y 1, eq_ix2 y⟩
  rw [blk3_read c t (zG V c) r k (row_lt t.val (lt25 t) r)]
  refine (pay3_apply (xblk V c t) (wblk V c t) (bblk V c t) r k).trans ?_
  exact zBlk_eq V c t r k

/-- Row `i` of the array lies in the block of point `i / 2000`: the blocks of z cover it. -/
theorem cover_z (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0 : Nat) < 50000 := (i 0).isLt
  have h1 : (i 1 : Nat) < 512 := (i 1).isLt
  have hN : cfg0.N = 25 := N_0
  let t : Fin cfg0.N := ⟨(i 0 : Nat) / 2000, by rw [hN]; omega⟩
  have hi := (index0_out t).1
  refine ⟨t, flush0_3 t, ?_⟩
  show i ∈ ((View.whole main_v19_0).slice (win0_3.rect t)).set
  rw [View.set_slice_whole, Rect.mem_set_unit]
  intro a
  match a with
  | ⟨0, _⟩ =>
    show win0_3.index t 0 * 2000 ≤ (i 0 : Nat) ∧ (i 0 : Nat) < win0_3.index t 0 * 2000 + 2000
    rw [hi.1]; show (i 0 : Nat) / 2000 * 2000 ≤ (i 0 : Nat) ∧ (i 0 : Nat) < (i 0 : Nat) / 2000 * 2000 + 2000; omega
  | ⟨1, _⟩ =>
    show win0_3.index t 1 * 512 ≤ (i 1 : Nat) ∧ (i 1 : Nat) < win0_3.index t 1 * 512 + 512
    rw [hi.2]; omega

/-- The 25 block sums of column `j` together are its sum over all 50000 rows. -/
theorem total_sum (c : Dev nD) (j : Fin 512) :
    ∑ i ∈ Finset.range 25, blkSum V c j i = ∑ n : Fin 50000, lin (xarr V c) (warr V c) (row0 (barr V c)) n j := by
  rw [Cert.BlockSum.sum_blocks 25 2000 rfl (fun n => lin (xarr V c) (warr V c) (row0 (barr V c)) n j), Finset.sum_range]
  exact Finset.sum_congr rfl fun kb _ => by unfold blkSum; rw [dif_pos kb.isLt]

/-- The 25 block sums of squares of column `j` together are its sum of squares over all 50000 rows. -/
theorem total_sumsq (c : Dev nD) (j : Fin 512) :
    ∑ i ∈ Finset.range 25, blkSumSq V c j i
      = ∑ n : Fin 50000, lin (xarr V c) (warr V c) (row0 (barr V c)) n j * lin (xarr V c) (warr V c) (row0 (barr V c)) n j := by
  rw [Cert.BlockSum.sum_blocks 25 2000 rfl (fun n => lin (xarr V c) (warr V c) (row0 (barr V c)) n j * lin (xarr V c) (warr V c) (row0 (barr V c)) n j),
    Finset.sum_range]
  exact Finset.sum_congr rfl fun kb _ => by unfold blkSumSq; rw [dif_pos kb.isLt]

/-- The row of column sums of z as the specification writes it. -/
abbrev sumG (c : Dev nD) : Vec Ideal S1x512 .f32 := colSumArr (zArr (V c main_v14) (V c main_v15) (V c main_v16))
/-- The row of column sums of squares of z as the specification writes it. -/
abbrev sumsqG (c : Dev nD) : Vec Ideal S1x512 .f32 := colSumSqArr (zArr (V c main_v14) (V c main_v15) (V c main_v16))

/-- The one write-back of the row of sums, after the last point, writes the column sums of z: its block is the whole row. -/
theorem flushed_sum (c : Dev nD) (t : Fin cfg0.N) (hf : (cfg0.win 4).flush t = true) :
    (dat0 V c).flushed 4 t = ((cfg0.win 4).blk t).view.read (Elt Ideal) (sumG V c) := by
  have h24 : t.val = 24 := by have := (flush0_4 t).mp hf; have := lt25 t; omega
  have hi := (index0_out t).2.1
  show (cfg0.win 4).cut (grid0.coords t) ((dat0 V c).after 4 t) = _
  rw [after0_4]
  have hz' : (fun a => win0_4.index t a * main_v19_1.ty.shape.size a) = fun _ => 0 :=
    funext fun a => match a with
      | ⟨0, _⟩ => by show win0_4.index t 0 * _ = 0; rw [hi.1, Nat.zero_mul]
      | ⟨1, _⟩ => by show win0_4.index t 1 * _ = 0; rw [hi.2, Nat.zero_mul]
  refine Eq.trans ?_ (Memref.read_access_unit_zero (Elt Ideal) main_v19_1 hz' (fun a => by rw [congrFun hz' a]; simp) (sumG V c)).symm
  refine funext fun (y : S1x512.Idx) => ?_
  show (outsAt0 V c t.val t.isLt).2.1 y = sumG V c y
  obtain ⟨r, j, rfl⟩ : ∃ (r : Fin 1) (j : Fin 512), y = ix2 r j := ⟨y 0, y 1, eq_ix2 y⟩
  obtain rfl : r = 0 := Subsingleton.elim _ _
  rw [outs_sum V c j t.val t.isLt, h24]
  exact total_sum V c j

/-- The one write-back of the row of sums of squares, after the last point, writes the column sums of squares of z. -/
theorem flushed_sumsq (c : Dev nD) (t : Fin cfg0.N) (hf : (cfg0.win 5).flush t = true) :
    (dat0 V c).flushed 5 t = ((cfg0.win 5).blk t).view.read (Elt Ideal) (sumsqG V c) := by
  have h24 : t.val = 24 := by have := (flush0_5 t).mp hf; have := lt25 t; omega
  have hi := (index0_out t).2.2
  show (cfg0.win 5).cut (grid0.coords t) ((dat0 V c).after 5 t) = _
  rw [after0_5]
  have hz' : (fun a => win0_5.index t a * main_v19_2.ty.shape.size a) = fun _ => 0 :=
    funext fun a => match a with
      | ⟨0, _⟩ => by show win0_5.index t 0 * _ = 0; rw [hi.1, Nat.zero_mul]
      | ⟨1, _⟩ => by show win0_5.index t 1 * _ = 0; rw [hi.2, Nat.zero_mul]
  refine Eq.trans ?_ (Memref.read_access_unit_zero (Elt Ideal) main_v19_2 hz' (fun a => by rw [congrFun hz' a]; simp) (sumsqG V c)).symm
  refine funext fun (y : S1x512.Idx) => ?_
  show (outsAt0 V c t.val t.isLt).2.2 y = sumsqG V c y
  obtain ⟨r, j, rfl⟩ : ∃ (r : Fin 1) (j : Fin 512), y = ix2 r j := ⟨y 0, y 1, eq_ix2 y⟩
  obtain rfl : r = 0 := Subsingleton.elim _ _
  rw [outs_sumsq V c j t.val t.isLt, h24]
  exact total_sumsq V c j

/-- The last point's block of the row of sums is the whole row: it covers it. -/
theorem cover_4 (c : Dev nD) (i : ((cfg0.win 4).arr.view.loc (c.tc : Thread nD τ)).2.ty.Idx) :
    ∃ t : Fin cfg0.N, (cfg0.win 4).flush t = true ∧ i ∈ ((cfg0.win 4).blk t).view.set := by
  have h0 : (i 0 : Nat) < 1 := (i 0).isLt
  have h1 : (i 1 : Nat) < 512 := (i 1).isLt
  have hN : cfg0.N = 25 := N_0
  let t : Fin cfg0.N := ⟨24, by rw [hN]; decide⟩
  have hi := (index0_out t).2.1
  refine ⟨t, (flush0_4 t).mpr rfl, ?_⟩
  show i ∈ ((View.whole main_v19_1).slice (win0_4.rect t)).set
  rw [View.set_slice_whole, Rect.mem_set_unit]
  intro a
  match a with
  | ⟨0, _⟩ =>
    show win0_4.index t 0 * 1 ≤ (i 0 : Nat) ∧ (i 0 : Nat) < win0_4.index t 0 * 1 + 1
    rw [hi.1]; omega
  | ⟨1, _⟩ =>
    show win0_4.index t 1 * 512 ≤ (i 1 : Nat) ∧ (i 1 : Nat) < win0_4.index t 1 * 512 + 512
    rw [hi.2]; omega

/-- The last point's block of the row of sums of squares is the whole row: it covers it. -/
theorem cover_5 (c : Dev nD) (i : ((cfg0.win 5).arr.view.loc (c.tc : Thread nD τ)).2.ty.Idx) :
    ∃ t : Fin cfg0.N, (cfg0.win 5).flush t = true ∧ i ∈ ((cfg0.win 5).blk t).view.set := by
  have h0 : (i 0 : Nat) < 1 := (i 0).isLt
  have h1 : (i 1 : Nat) < 512 := (i 1).isLt
  have hN : cfg0.N = 25 := N_0
  let t : Fin cfg0.N := ⟨24, by rw [hN]; decide⟩
  have hi := (index0_out t).2.2
  refine ⟨t, (flush0_5 t).mpr rfl, ?_⟩
  show i ∈ ((View.whole main_v19_2).slice (win0_5.rect t)).set
  rw [View.set_slice_whole, Rect.mem_set_unit]
  intro a
  match a with
  | ⟨0, _⟩ =>
    show win0_5.index t 0 * 1 ≤ (i 0 : Nat) ∧ (i 0 : Nat) < win0_5.index t 0 * 1 + 1
    rw [hi.1]; omega
  | ⟨1, _⟩ =>
    show win0_5.index t 1 * 512 ≤ (i 1 : Nat) ∧ (i 1 : Nat) < win0_5.index t 1 * 512 + 512
    rw [hi.2]; omega

/-- The layer's output array after the region: z of the aggregated features, the transposed weight and the bias row. -/
theorem final_z (c : Dev nD) :
    (dat0 (F := Ideal) V c).arrAt 3 cfg0.N = zArr (V c main_v14) (V c main_v15) (V c main_v16) :=
  (dat0 V c).arrAt_eq_of_cover 3 (zG V c) (flushed_z V c) (cover_z c)

/-- The running column sums after the last point: the sums of z over all 50000 nodes. -/
theorem final_sum (c : Dev nD) :
    (dat0 (F := Ideal) V c).arrAt 4 cfg0.N = colSumArr (zArr (V c main_v14) (V c main_v15) (V c main_v16)) :=
  (dat0 V c).arrAt_eq_of_cover 4 (sumG V c) (flushed_sum V c) (cover_4 c)

/-- The running column sums of squares after the last point: the sums of z² over all 50000 nodes. -/
theorem final_sumsq (c : Dev nD) :
    (dat0 (F := Ideal) V c).arrAt 5 cfg0.N = colSumSqArr (zArr (V c main_v14) (V c main_v15) (V c main_v16)) :=
  (dat0 V c).arrAt_eq_of_cover 5 (sumsqG V c) (flushed_sumsq V c) (cover_5 c)

end Cert.KernelIdeal.Region0
end
-- ==== Proof.Region1.lean ====
/-
  REGION 1 (the normalisation step), read as values at the ideal instance. For ANY contents `V` of the buffers when
  the region is entered, its result array after its 25 grid points: each point writes its own block of 2000 rows,
  γ · (z − μ) · s + β of the z block and the four [1, 512] rows.
-/
import proofs.«181668_j10969346474303_1_alg».proof.Proof.Gen.KernelIdeal.Frame
import proofs.«181668_j10969346474303_1_alg».proof.Proof.Spec
import Idealize.ShloMosaic.Lib.Pipeline.Value
import Idealize.ShloMosaic.Lib.ValueLayout
import Idealize.ShloMosaic.Lib.Tactic

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.Bridge.BN

variable (V : (c : Dev nD) → (b : Ref sig .tc) → Buf (Elt Ideal) ((c : Thread nD τ).loc b))

/-! ## Index facts -/

/-- The pair of zero offsets is the constant zero offset. -/
private theorem zero_offsets : (![0, 0] : Fin 2 → Nat) = fun _ => 0 := funext fun a => by fin_cases a <;> rfl

/-- The block indices over the 25 grid points: the z block and the result block sit at block row `t`, block column 0;
    each of the four rows is the whole [1, 512] array, at block (0, 0). -/
private theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## The body's value at one entry of a block -/

/-- A block of 2000 rows. -/
private abbrev Blk := Vec Ideal S2000x512 .f32
/-- A [1, 512] row. -/
private abbrev Row := Vec Ideal S1x512 .f32

/-- The stored value at row `p`, column `q` of the block: γ_q · (z_{p,q} − μ_q) · s_q + β_q, each row broadcast down
    the 2000 rows of the block. -/
private theorem pay_apply (g : Row) (z : Blk) (mu s be : Row) (p : Fin 2000) (q : Fin 512) :
    k1_pay1 (F := Ideal) g z mu s be (ix2 p q)
      = g (ix2 (0 : Fin 1) q) * (z (ix2 p q) - mu (ix2 (0 : Fin 1) q)) * s (ix2 (0 : Fin 1) q) + be (ix2 (0 : Fin 1) q) := by
  unfold k1_pay1
  simp only [shapeCast_self, addf_apply, mulf_apply, subf_apply, broadcastTo_1b_ab_apply]

/-- The whole-array normalisation at an index whose column is `q`. -/
private theorem bnApplyArr_apply (z : SNF.Idx → EReal) (mu s ga be : S1H.Idx → EReal) (i : SNF.Idx) (q : Fin 512) (h : i 1 = q) :
    bnApplyArr z mu s ga be i
      = ga (ix2 (0 : Fin 1) q) * (z i - mu (ix2 (0 : Fin 1) q)) * s (ix2 (0 : Fin 1) q) + be (ix2 (0 : Fin 1) q) := by
  subst h; rfl

/-! ## Each input block, read where the result block's rectangle says -/

/-- The z block at point `t` is the z array under the result block's rectangle: both sit at block (t, 0) of
    [2000, 512] blocks, so entry `y` of either is array entry (2000 t + y₀, y₁). -/
private theorem blk0_apply (c : Dev nD) (t : Fin cfg1.N) (y : S2000x512.Idx) :
    (iblk1 V c 0 t : Blk) y = V c main_v19_0 (((cfg1.win 5).blk t).view.emb y) := by
  obtain ⟨e00, e01, e10, e11, e20, e21, e30, e31, e40, e41, e50, e51⟩ := index_facts t
  show V c main_v19_0 (((cfg1.win 0).blk t).view.emb y) = V c main_v19_0 (((cfg1.win 5).blk t).view.emb y)
  refine congrArg _ ?_
  funext a; apply Fin.ext
  match a with
  | ⟨0, _⟩ => show win1_0.index t (0 : Fin 2) * 2000 + 1 * (y 0).val = win1_5.index t (0 : Fin 2) * 2000 + 1 * (y 0).val; omega
  | ⟨1, _⟩ => show win1_0.index t (1 : Fin 2) * 512 + 1 * (y 1).val = win1_5.index t (1 : Fin 2) * 512 + 1 * (y 1).val; omega

/-- The mean row's block at any point is the whole mean row: block (0, 0) of a [1, 512] array in [1, 512] blocks. -/
private theorem blk1_apply (c : Dev nD) (t : Fin cfg1.N) (q : Fin 512) :
    (iblk1 V c 1 t : Row) (ix2 (0 : Fin 1) q) = V c main_v21 (ix2 (0 : Fin 1) q) := by
  obtain ⟨e00, e01, e10, e11, e20, e21, e30, e31, e40, e41, e50, e51⟩ := index_facts t
  show V c main_v21 (((cfg1.win 1).blk t).view.emb (ix2 (0 : Fin 1) q)) = V c main_v21 (ix2 (0 : Fin 1) q)
  refine congrArg _ ?_
  funext a; apply Fin.ext
  match a with
  | ⟨0, _⟩ => show win1_1.index t (0 : Fin 2) * 1 + 1 * 0 = 0; omega
  | ⟨1, _⟩ => show win1_1.index t (1 : Fin 2) * 512 + 1 * q.val = q.val; omega

/-- The inverse-standard-deviation row's block at any point is the whole row. -/
private theorem blk2_apply (c : Dev nD) (t : Fin cfg1.N) (q : Fin 512) :
    (iblk1 V c 2 t : Row) (ix2 (0 : Fin 1) q) = V c main_v28 (ix2 (0 : Fin 1) q) := by
  obtain ⟨e00, e01, e10, e11, e20, e21, e30, e31, e40, e41, e50, e51⟩ := index_facts t
  show V c main_v28 (((cfg1.win 2).blk t).view.emb (ix2 (0 : Fin 1) q)) = V c main_v28 (ix2 (0 : Fin 1) q)
  refine congrArg _ ?_
  funext a; apply Fin.ext
  match a with
  | ⟨0, _⟩ => show win1_2.index t (0 : Fin 2) * 1 + 1 * 0 = 0; omega
  | ⟨1, _⟩ => show win1_2.index t (1 : Fin 2) * 512 + 1 * q.val = q.val; omega

/-- The scale row's block at any point is the whole row. -/
private theorem blk3_apply (c : Dev nD) (t : Fin cfg1.N) (q : Fin 512) :
    (iblk1 V c 3 t : Row) (ix2 (0 : Fin 1) q) = V c main_v17 (ix2 (0 : Fin 1) q) := by
  obtain ⟨e00, e01, e10, e11, e20, e21, e30, e31, e40, e41, e50, e51⟩ := index_facts t
  show V c main_v17 (((cfg1.win 3).blk t).view.emb (ix2 (0 : Fin 1) q)) = V c main_v17 (ix2 (0 : Fin 1) q)
  refine congrArg _ ?_
  funext a; apply Fin.ext
  match a with
  | ⟨0, _⟩ => show win1_3.index t (0 : Fin 2) * 1 + 1 * 0 = 0; omega
  | ⟨1, _⟩ => show win1_3.index t (1 : Fin 2) * 512 + 1 * q.val = q.val; omega

/-- The shift row's block at any point is the whole row. -/
private theorem blk4_apply (c : Dev nD) (t : Fin cfg1.N) (q : Fin 512) :
    (iblk1 V c 4 t : Row) (ix2 (0 : Fin 1) q) = V c main_v18 (ix2 (0 : Fin 1) q) := by
  obtain ⟨e00, e01, e10, e11, e20, e21, e30, e31, e40, e41, e50, e51⟩ := index_facts t
  show V c main_v18 (((cfg1.win 4).blk t).view.emb (ix2 (0 : Fin 1) q)) = V c main_v18 (ix2 (0 : Fin 1) q)
  refine congrArg _ ?_
  funext a; apply Fin.ext
  match a with
  | ⟨0, _⟩ => show win1_4.index t (0 : Fin 2) * 1 + 1 * 0 = 0; omega
  | ⟨1, _⟩ => show win1_4.index t (1 : Fin 2) * 512 + 1 * q.val = q.val; omega

/-- An entry of the result block keeps its column in the array: the block column index is 0. -/
private theorem emb_col (t : Fin cfg1.N) (y : S2000x512.Idx) :
    (((cfg1.win 5).blk t).view.emb y : S50000x512.Idx) 1 = y 1 := by
  obtain ⟨e00, e01, e10, e11, e20, e21, e30, e31, e40, e41, e50, e51⟩ := index_facts t
  apply Fin.ext
  show win1_5.index t (1 : Fin 2) * 512 + 1 * (y 1).val = (y 1).val
  omega

/-- Entry `y` of what the body stores at point `t` is the whole-array normalisation at the array index of `y`. -/
private theorem point_eq (c : Dev nD) (t : Fin cfg1.N) (y : S2000x512.Idx) :
    k1_pay1 (F := Ideal) (iblk1 V c 3 t) (iblk1 V c 0 t) (iblk1 V c 1 t) (iblk1 V c 2 t) (iblk1 V c 4 t) y
     = bnApplyArr (V c main_v19_0) (V c main_v21) (V c main_v28) (V c main_v17) (V c main_v18) (((cfg1.win 5).blk t).view.emb y) := by
  obtain ⟨p, q, rfl⟩ : ∃ (p : Fin 2000) (q : Fin 512), y = ix2 p q := ⟨y 0, y 1, eq_ix2 y⟩
  rw [pay_apply, blk0_apply, blk1_apply, blk2_apply, blk3_apply, blk4_apply,
    bnApplyArr_apply _ _ _ _ _ _ q (emb_col t (ix2 p q))]

/-! ## What each point writes back, and the cover -/

/-- What point `t` writes back is block `t` of the whole-array normalisation of the arrays as the region finds them. -/
private theorem flushed_eq (c : Dev nD) (t : Fin cfg1.N) :
    (dat1 (F := Ideal) V c).flushed 5 t = ((cfg1.win 5).blk t).view.read (Elt Ideal)
      (bnApplyArr (V c main_v19_0) (V c main_v21) (V c main_v28) (V c main_v17) (V c main_v18)) := by
  show (cfg1.win 5).cut (grid1.coords t) ((dat1 V c).after 5 t) = _
  rw [after1_5]
  unfold out1_5
  rw [View.canon_unit_zero zero_offsets]
  simp only [View.ld_unit_zero (S := S2000x512) zero_offsets, View.ld_unit_zero (S := S1x512) zero_offsets]
  funext y
  exact point_eq V c t y

/-- An index of the result array is in point `t`'s block iff each coordinate is in the block's range on its axis. -/
private theorem mem_blk (t : Fin cfg1.N) (i : S50000x512.Idx) :
    i ∈ ((cfg1.win 5).blk t).view.set ↔ ∀ a : Fin 2, win1_5.index t a * S2000x512.size a ≤ (i a).val ∧ (i a).val < win1_5.index t a * S2000x512.size a + S2000x512.size a := by
  show i ∈ ((View.whole main_v29).slice (win1_5.rect t)).set ↔ _
  rw [View.set_slice_whole, Rect.mem_set_unit]
  exact Iff.rfl

/-- The 25 blocks of 2000 rows tile the 50000 rows: row `r` is in the block of point `r / 2000`. -/
private theorem cover (i : S50000x512.Idx) :
    ∃ t : Fin cfg1.N, (cfg1.win 5).flush t = true ∧ i ∈ ((cfg1.win 5).blk t).view.set := by
  have hi0 : (i 0).val < 50000 := (i 0).isLt
  have hi1 : (i 1).val < 512 := (i 1).isLt
  have ht : (i 0).val / 2000 < 25 := by omega
  refine ⟨⟨(i 0).val / 2000, ht⟩, flush1_5 _, ?_⟩
  obtain ⟨e00, e01, e10, e11, e20, e21, e30, e31, e40, e41, e50, e51⟩ := index_facts ⟨(i 0).val / 2000, ht⟩
  rw [mem_blk]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e50]
    show (i 0).val / 2000 * 2000 ≤ (i 0).val ∧ (i 0).val < (i 0).val / 2000 * 2000 + 2000
    omega
  | ⟨1, _⟩ =>
    show win1_5.index ⟨(i 0).val / 2000, ht⟩ (1 : Fin 2) * 512 ≤ (i 1).val
      ∧ (i 1).val < win1_5.index ⟨(i 0).val / 2000, ht⟩ (1 : Fin 2) * 512 + 512
    rw [e51]
    omega

/-! ## The result array -/

/-- The result array after the region: the normalisation of the z array by the mean row, the inverse standard
    deviation row, the scale row and the shift row, as the region finds them. -/
theorem final_out (c : Dev nD) :
    (dat1 (F := Ideal) V c).arrAt 5 cfg1.N
      = bnApplyArr (V c main_v19_0) (V c main_v21) (V c main_v28) (V c main_v17) (V c main_v18) :=
  (dat1 V c).arrAt_eq_of_cover 5 _ (fun t _ => flushed_eq V c t) cover

end Cert.KernelIdeal.Region1

end
-- ==== Proof.HostReads.lean ====
/-
  THE HOST STRETCHES of the idealized kernel, read as values: what each array a region reads holds when the region is
  entered, in terms of the launch memory and of what the region before left.
-/
import proofs.«181668_j10969346474303_1_alg».proof.Proof.Gen.KernelIdeal.Frame
import proofs.«181668_j10969346474303_1_alg».proof.Proof.Spec
import Idealize.ShloMosaic.Lib.StableHlo.Run
import Idealize.ShloMosaic.Lib.Pipeline.Value
import Idealize.ShloMosaic.PureOps.Ideal

set_option maxRecDepth 16384

noncomputable section

namespace Cert.KernelIdeal.HostReads

open Idealize.ShloMosaic Idealize.ShloMosaic.TcCoe Idealize.SL.Sem Idealize.ShloMosaic.StableHlo Idealize.ShloMosaic.ValueIdx
open Cert.KernelIdeal Cert.KernelIdeal.Gen Cert.Bridge.BN

variable (m : (ℓ : Loc nD τ sig) → Buf (Elt Ideal) ℓ) (ρ : Dev nD → PrngReg)

/-- Region 1 reads the layer's output as region 0 left it. -/
theorem V3_v19_0 (c : Dev nD) : V3 m ρ c main_v19_0 = (dat0 (F := Ideal) (V1 m ρ) c).arrAt 3 cfg0.N := by
  show StableHlo.after hostOps1 (W2 m ρ c) (Proc.devRef .tc main_v19_0) = _
  after_results
  exact W2_arr m ρ c 3

/-- Region 1 reads the mean row: the column sums region 0 left, divided by the node count. -/
theorem V3_v21 (c : Dev nD) : V3 m ρ c main_v21
    = Host.divf ((dat0 (F := Ideal) (V1 m ρ) c).arrAt 4 cfg0.N) (broadcastInDim S1x512 ![] bcast_S_S1x512 (constant (F := Ideal) S_ .f32 0x47435000#32)) := by
  show StableHlo.after hostOps1 (W2 m ρ c) (Proc.devRef .tc main_v21) = _
  after_results
  rw [show W2 m ρ c (Proc.devRef .tc main_v19_1) = _ from W2_arr m ρ c 4]

/-- Region 1 reads the inverse standard deviation row: from the column sums of squares and the column sums region 0 left. -/
theorem V3_v28 (c : Dev nD) : V3 m ρ c main_v28
    = Host.rsqrt (addf (subf
        (Host.divf ((dat0 (F := Ideal) (V1 m ρ) c).arrAt 5 cfg0.N) (broadcastInDim S1x512 ![] bcast_S_S1x512 (constant (F := Ideal) S_ .f32 0x47435000#32)))
        (mulf (Host.divf ((dat0 (F := Ideal) (V1 m ρ) c).arrAt 4 cfg0.N) (broadcastInDim S1x512 ![] bcast_S_S1x512 (constant (F := Ideal) S_ .f32 0x47435000#32)))
              (Host.divf ((dat0 (F := Ideal) (V1 m ρ) c).arrAt 4 cfg0.N) (broadcastInDim S1x512 ![] bcast_S_S1x512 (constant (F := Ideal) S_ .f32 0x47435000#32)))))
        (broadcastInDim S1x512 ![] bcast_S_S1x512 (constant (F := Ideal) S_ .f32 0x3727C5AC#32))) := by
  show StableHlo.after hostOps1 (W2 m ρ c) (Proc.devRef .tc main_v28) = _
  after_results
  rw [show W2 m ρ c (Proc.devRef .tc main_v19_1) = _ from W2_arr m ρ c 4,
    show W2 m ρ c (Proc.devRef .tc main_v19_2) = _ from W2_arr m ρ c 5]

/-- Region 1 reads the scale row: γ recast as a row. -/
theorem V3_v17 (c : Dev nD) : V3 m ρ c main_v17 = V1 m ρ c main_v17 := by
  show StableHlo.after hostOps1 (W2 m ρ c) (Proc.devRef .tc main_v17) = _
  after_results
  exact W2_of_ne m ρ c main_v17 (by decide)

theorem V3_v18 (c : Dev nD) : V3 m ρ c main_v18 = V1 m ρ c main_v18 := by
  show StableHlo.after hostOps1 (W2 m ρ c) (Proc.devRef .tc main_v18) = _
  after_results
  exact W2_of_ne m ρ c main_v18 (by decide)

/-- Region 0 reads the transposed weight. -/
theorem V1_v15 (c : Dev nD) : V1 m ρ c main_v15
    = transpose S512x512 [1, 0] (m ((c : Thread nD τ).loc main_arg3)) transposes_S512x512_S512x512_1_0 := by
  show StableHlo.after hostOps0 (W0 m ρ c) (Proc.devRef .tc main_v15) = _
  after_results

/-- Region 0 reads the bias recast as a row. -/
theorem V1_v16 (c : Dev nD) : V1 m ρ c main_v16
    = shapeCast S1x512 (m ((c : Thread nD τ).loc main_arg4)) shapeCasts_S512_S1x512 := by
  show StableHlo.after hostOps0 (W0 m ρ c) (Proc.devRef .tc main_v16) = _
  after_results
  rfl

/-- The scale recast as a row. -/
theorem V1_v17 (c : Dev nD) : V1 m ρ c main_v17
    = shapeCast S1x512 (m ((c : Thread nD τ).loc main_arg5)) shapeCasts_S512_S1x512 := by
  show StableHlo.after hostOps0 (W0 m ρ c) (Proc.devRef .tc main_v17) = _
  after_results
  rfl

/-- The shift recast as a row. -/
theorem V1_v18 (c : Dev nD) : V1 m ρ c main_v18
    = shapeCast S1x512 (m ((c : Thread nD τ).loc main_arg6)) shapeCasts_S512_S1x512 := by
  show StableHlo.after hostOps0 (W0 m ρ c) (Proc.devRef .tc main_v18) = _
  after_results
  rfl

/-- A [512] vector recast as a [1, 512] row: row 0 of the row is the vector. -/
theorem row0_shapeCast (x : S512.Idx → EReal) (h : S512.ShapeCasts S1x512) :
    row0 (shapeCast S1x512 x h) = vec x := by
  funext j
  show shapeCast S1x512 x h (ix2 (0 : Fin 1) j) = x (ix1 j)
  rw [shapeCast_addUnit_apply (n := 1) (![512]) x h (ix2 (0 : Fin 1) j)]
  congr 1
  funext a
  match a with
  | ⟨0, _⟩ => rfl

end Cert.KernelIdeal.HostReads

end
-- ==== Proof.KernelValue.lean ====
/-
  THE IDEALIZED KERNEL'S RESULT, read at one element. The result buffer at the last segment boundary is what region 1
  wrote; region 1 normalises the array region 0 left with the mean row and the inverse standard deviation row the host
  computes, between the regions, from the two running rows region 0 left. Put together, at node n and feature j it is
  the batch normalisation, with the MOMENT variance, of the linear layer of the aggregated features.
-/
import proofs.«181668_j10969346474303_1_alg».proof.Proof.Gen.KernelIdeal.Frame
import proofs.«181668_j10969346474303_1_alg».proof.Proof.Region0
import proofs.«181668_j10969346474303_1_alg».proof.Proof.Region1
import proofs.«181668_j10969346474303_1_alg».proof.Proof.Spec
import proofs.«181668_j10969346474303_1_alg».proof.Proof.HostReads
import Idealize.ShloMosaic.Lib.Pipeline.Value
import Idealize.ShloMosaic.PureOps.Ideal

set_option maxRecDepth 16384

noncomputable section

namespace Cert.KernelIdeal.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.Bridge.BN Cert.KernelIdeal.HostReads
open Cert.KernelIdeal.Region0 Cert.KernelIdeal.Region1

variable (m : (ℓ : Loc nD τ sig) → Buf (Elt Ideal) ℓ) (ρ : Dev nD → PrngReg)

/-- The result buffer at (n, j): batch normalisation with the moment variance of the linear layer. -/
theorem result_apply (c : Dev nD) (n : Fin 50000) (j : Fin 512) :
    W4 m ρ c (Proc.devRef .tc main_v29) (ix2 n j)
      = bn (lin (V1 m ρ c main_v14) (V1 m ρ c main_v15) (vec (m ((c : Thread nD τ).loc main_arg4))))
           (varMoment (lin (V1 m ρ c main_v14) (V1 m ρ c main_v15) (vec (m ((c : Thread nD τ).loc main_arg4)))))
           (vec (m ((c : Thread nD τ).loc main_arg5))) (vec (m ((c : Thread nD τ).loc main_arg6))) n j := by
  have e5 : W4 m ρ c (Proc.devRef .tc main_v29) = (dat1 (F := Ideal) (V3 m ρ) c).arrAt 5 cfg1.N := W4_arr m ρ c 5
  rw [e5, final_out (V3 m ρ) c, V3_v17, V1_v17, V3_v18, V1_v18, V3_v19_0, final_z (V1 m ρ) c, V3_v21, V3_v28,
    final_sum (V1 m ρ) c, final_sumsq (V1 m ρ) c, V1_v16]
  unfold bnApplyArr
  dsimp only
  rw [row0_shapeCast, row0_shapeCast]
  have hZ : zArr (V1 m ρ c main_v14) (V1 m ρ c main_v15) (shapeCast S1x512 (m ((c : Thread nD τ).loc main_arg4)) shapeCasts_S512_S1x512)
      = fun i => lin (V1 m ρ c main_v14) (V1 m ρ c main_v15) (vec (m ((c : Thread nD τ).loc main_arg4))) (i 0) (i 1) := by
    funext i
    unfold zArr
    rw [row0_shapeCast]
  rw [hZ]
  unfold bn mean varMoment
  rfl

end Cert.KernelIdeal.KernelValue

end
-- ==== Proof.RefValue.lean ====
/-
  THE REFERENCE, read as values at the ideal instance: its result is the batch normalisation, with the CENTRED
  variance, of the linear layer of the aggregated features.
-/
import proofs.«181668_j10969346474303_1_alg».proof.Proof.Gen.ReferenceIdeal.Read
import proofs.«181668_j10969346474303_1_alg».proof.Proof.Spec

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read Cert.Bridge.BN

/-! ## The composed index maps, by coordinates -/

/-- The left operand of the contraction is read at (node, k). -/
private theorem lidx_eq (n : Fin 50000) (j k : Fin 512) : lidx_main_v16 (ix2 n j) k = ix2 n k :=
  funext fun a => by match a with | ⟨0, _⟩ => rfl | ⟨1, _⟩ => rfl

/-- The right operand of the contraction is read at (k, feature). -/
private theorem ridx_eq (n : Fin 50000) (j k : Fin 512) : ridx_main_v16 (ix2 n j) k = ix2 k j :=
  funext fun a => by match a with | ⟨0, _⟩ => rfl | ⟨1, _⟩ => rfl

/-- A column reduction's k-th summand at feature j is read at (k, j). -/
private theorem idx20_eq (j : Fin 512) (k : Fin 50000) : idx_main_v20 (ix1 j) k = ix2 k j :=
  funext fun a => by match a with | ⟨0, _⟩ => rfl | ⟨1, _⟩ => rfl
private theorem idx27_eq (j : Fin 512) (k : Fin 50000) : idx_main_v27 (ix1 j) k = ix2 k j :=
  funext fun a => by match a with | ⟨0, _⟩ => rfl | ⟨1, _⟩ => rfl

/-- A [512] vector broadcast to a row and then down the node axis is read at the feature. -/
private theorem row17_eq (n : Fin 50000) (j : Fin 512) : idx_main_v17 (idx_main_v18 (ix2 n j)) = ix1 j :=
  funext fun a => by match a with | ⟨0, _⟩ => rfl
private theorem row23_eq (n : Fin 50000) (j : Fin 512) : idx_main_v23 (idx_main_v24 (ix2 n j)) = ix1 j := row17_eq n j
private theorem row30_eq (n : Fin 50000) (j : Fin 512) : idx_main_v30 (idx_main_v31 (ix2 n j)) = ix1 j := row17_eq n j
private theorem row33_eq (n : Fin 50000) (j : Fin 512) : idx_main_v33 (idx_main_v34 (ix2 n j)) = ix1 j := row17_eq n j
private theorem row39_eq (n : Fin 50000) (j : Fin 512) : idx_main_v39 (idx_main_v40 (ix2 n j)) = ix1 j := row17_eq n j
private theorem row42_eq (n : Fin 50000) (j : Fin 512) : idx_main_v42 (idx_main_v43 (ix2 n j)) = ix1 j := row17_eq n j

section
variable (x0 : (⟨S50000x512, .f32⟩ : BufTy).Contents (Elt Ideal)) (x1 : (⟨S2x160000, .i32⟩ : BufTy).Contents (Elt Ideal))
  (x3 : (⟨S512x512, .f32⟩ : BufTy).Contents (Elt Ideal)) (x4 x5 x6 : (⟨S512, .f32⟩ : BufTy).Contents (Elt Ideal))

/-- The matrix product plus the broadcast bias is the linear layer. -/
private theorem z_apply (n : Fin 50000) (j : Fin 512) :
    val_main_v19 (F := Ideal) x0 x1 x3 x4 (ix2 n j)
      = lin (val_main_v14 (F := Ideal) x0 x1) (val_main_v15 (F := Ideal) x3) (vec x4) n j := by
  rw [val_main_v19_apply, val_main_v16_apply, val_main_v18_apply, val_main_v17_apply, row17_eq, Ideal.addf_def]
  unfold lin
  refine congrArg (· + x4 (ix1 j)) (Finset.sum_congr rfl fun k _ => ?_)
  rw [lidx_eq, ridx_eq]

/-- The column sum from zero, divided by the node count, is the mean of the linear layer. -/
private theorem mean_apply (j : Fin 512) :
    val_main_v22 (F := Ideal) x0 x1 x3 x4 (ix1 j)
      = mean (lin (val_main_v14 (F := Ideal) x0 x1) (val_main_v15 (F := Ideal) x3) (vec x4)) j := by
  rw [val_main_v22_apply, val_main_v20_apply, val_main_v21_apply, val_main_cst_2_apply, val_main_cst_1_apply]
  simp only [Ideal.hostDivf_def, Ideal.ofBits_def, Ideal.ofBits_zero_f32, zero_add]
  unfold mean
  refine congrArg (Ideal.div · cN) (Finset.sum_congr rfl fun k _ => ?_)
  rw [idx20_eq, z_apply]

/-- The column sum of squared deviations from zero, divided by the node count, is the centred variance. -/
private theorem var_apply (j : Fin 512) :
    val_main_v29 (F := Ideal) x0 x1 x3 x4 (ix1 j)
      = varCentred (lin (val_main_v14 (F := Ideal) x0 x1) (val_main_v15 (F := Ideal) x3) (vec x4)) j := by
  rw [val_main_v29_apply, val_main_v27_apply, val_main_v28_apply, val_main_cst_4_apply, val_main_cst_3_apply]
  simp only [Ideal.hostDivf_def, Ideal.ofBits_def, Ideal.ofBits_zero_f32, zero_add]
  unfold varCentred
  refine congrArg (Ideal.div · cN) (Finset.sum_congr rfl fun k _ => ?_)
  rw [idx27_eq, val_main_v26_apply, val_main_v25_apply, val_main_v24_apply, val_main_v23_apply, row23_eq, z_apply,
    mean_apply, Ideal.mulf_def, Ideal.subf_def]

end

/-- The reference's result at node `n`, feature `j`, from its six argument arrays (x, edge_index, W, b, γ, β):
    with h the aggregated features and wt the transposed weight as the reference's own stages compute them,
    the batch normalisation with the centred variance of the linear layer. -/
theorem result_apply (x0 : (⟨S50000x512, .f32⟩ : BufTy).Contents (Elt Ideal)) (x1 : (⟨S2x160000, .i32⟩ : BufTy).Contents (Elt Ideal))
    (x3 : (⟨S512x512, .f32⟩ : BufTy).Contents (Elt Ideal)) (x4 x5 x6 : (⟨S512, .f32⟩ : BufTy).Contents (Elt Ideal))
    (n : Fin 50000) (j : Fin 512) :
    val_main_v44 (F := Ideal) x0 x1 x3 x4 x5 x6 (ix2 n j)
      = bn (lin (val_main_v14 (F := Ideal) x0 x1) (val_main_v15 (F := Ideal) x3) (vec x4))
          (varCentred (lin (val_main_v14 (F := Ideal) x0 x1) (val_main_v15 (F := Ideal) x3) (vec x4))) (vec x5) (vec x6) n j := by
  rw [val_main_v44_apply, val_main_v41_apply, val_main_v43_apply, val_main_v42_apply, row42_eq,
    val_main_v35_apply, val_main_v34_apply, val_main_v33_apply, row33_eq,
    val_main_v32_apply, val_main_v31_apply, val_main_v30_apply, row30_eq,
    val_main_v40_apply, val_main_v39_apply, row39_eq, val_main_v38_apply, val_main_v37_apply,
    val_main_v36_apply, val_main_cst_5_apply, z_apply, mean_apply, var_apply]
  simp only [Ideal.addf_def, Ideal.subf_def, Ideal.mulf_def, Ideal.hostUnary_rsqrt_def, Ideal.ofBits_def]
  rfl

end Cert.ReferenceIdeal.RefValue

end
-- ==== Proof.LibGatherScatter.lean ====
/-
  ROW GATHER AND ROW SCATTER-ADD OF A TWO-AXIS TABLE, READ AT ONE ELEMENT.

  A table `x : [N, W]` and a column `idx : [E, 1]` of row numbers (integer words, read signed). Two host operations
  with the dimension numbers of `x[idx]` and of `x.at[idx].add(u)` along the row axis:

  * the GATHER (offset axes `[1]`, collapsed slice axes `[0]`, start index map `[0]`, index vector on axis 1, no
    batching axes) has result `[E, W]`; its element (e, j) is `x[r, j]` where `r` is `idx[e, 0]` clamped into
    `[0, N − 1]` (`gather_apply`), so `x[idx[e, 0], j]` when the row number is in range (`gather_apply_of_inRange`);
  * the SCATTER-ADD (update window axes `[1]`, inserted window axes `[0]`, scatter axes to operand axes `[0]`,
    index vector on axis 1) of updates `u : [E, W]` has, at the ideal instance, the element (n, j)
    `x[n, j] + ∑ over the e with idx[e, 0] = n of u[e, j]` (`hostScatterAdd_apply` / `scatterAdd_apply`): the row number
    is NOT clamped, and an update row whose number is no row of the table is dropped — no range condition is needed.

  Both act on each column by itself, so they commute with any choice of columns `c : Fin W' → Fin W`, in particular
  with taking the block of columns that starts at an offset (`gather_cols` / `gather_cols_offset`,
  `hostScatterAdd_cols` / `hostScatterAdd_cols_offset`, and `scatterAdd_cols` / `scatterAdd_cols_offset` on
  `Host.scatterAdd`): the gather of a concatenation `[h | p]` along the columns is, column block by column block, the
  gather of `h` and the gather of `p`, and likewise the scatter-add.

  Every lemma takes ANY dimension-number record whose lists are the ones above (hypotheses on the fields, each closed
  by `rfl` at a literal record), at any extents `N`, `E`, `W`, and speaks of indices built by `ix2` from coordinates.
-/
import Idealize.ShloMosaic.PureOps.Ideal
import Idealize.ShloMosaic.Lib.ValueIdx

open scoped BigOperators

namespace Cert.Bridge.GS

open Idealize.ShloMosaic Idealize.ShloMosaic.ValueIdx

/-- An entry of a list that is a singleton is its one element. -/
private theorem getElem_of_eq_singleton {β : Type} {l : List β} {b : β} (hl : l = [b]) {k : Nat} (hk : k < l.length) :
    l[k] = b := by
  subst hl
  have hk0 : k = 0 := by simpa using hk
  subst hk0; rfl

/-! ## The gather -/

section Gather
variable {α : Type} {N E W w : Nat}

/-- THE OPERAND INDEX of result element (e, j): the row is the start index `idx[e, 0]` read signed and clamped into
    `[0, N − 1]` (the row axis is collapsed, its slice one row), the column is `j` (the one offset axis). -/
theorem operandIdx_rows (hN : 0 < N) (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (idx : IVec ⟨2, ![E, 1]⟩ w) (e : Fin E) (j : Fin W) :
    d.operandIdx (ix2 e j) idx = ix2 ⟨min (idx (ix2 e 0)).toInt.toNat (N - 1), by omega⟩ j := by
  obtain ⟨od, cd, ob, sb, sim, ivd, ss, wf⟩ := d
  dsimp only at hoff hcoll hob hsim hivd
  subst hoff hcoll hob hsim hivd
  have hsl : ss 0 = 1 :=
    GatherDims.slice_collapsed (⟨[1], [0], [], sb, [0], 1, ss, wf⟩ : GatherDims ⟨2, ![N, W]⟩ ⟨2, ![E, 1]⟩ ⟨2, ![E, W]⟩) 0
      (List.mem_singleton.mpr rfl)
  funext a
  match a with
  | ⟨0, _⟩ =>
    refine Fin.ext ?_
    show GatherDims.start _ (ix2 e j) idx 0 + GatherDims.batchCoord _ (ix2 e j) 0 + GatherDims.offCoord _ (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    refine Fin.ext ?_
    match b with
    | ⟨0, _⟩ => rfl
    | ⟨1, _⟩ => rfl
  | ⟨1, _⟩ =>
    refine Fin.ext ?_
    show GatherDims.start _ (ix2 e j) idx 1 + GatherDims.batchCoord _ (ix2 e j) 1 + GatherDims.offCoord _ (ix2 e j) 1 = _
    rw [GatherDims.batchCoord_eq_zero _ _ _ List.not_mem_nil]
    unfold GatherDims.start GatherDims.offCoord
    rw [dif_neg (show (1 : Fin 2) ∉ [0] by decide),
      dif_pos ((GatherDims.mem_sKept _ _).mpr ⟨show (1 : Fin 2) ∉ [0] by decide, List.not_mem_nil⟩)]
    rw [getElem_of_eq_singleton (b := (1 : Fin 2)) rfl]
    show 0 + 0 + j.val = j.val
    omega

/-- THE GATHER READ AT (e, j), no range condition: the table at the row the start index `idx[e, 0]` names, read
    signed and clamped into `[0, N − 1]` (StableHLO clamps a start index so that the slice fits), at column `j`. -/
theorem gather_apply (hN : 0 < N) (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (x : (⟨2, ![N, W]⟩ : Shape).Idx → α) (idx : IVec ⟨2, ![E, 1]⟩ w) (e : Fin E) (j : Fin W) :
    Host.gather d x idx (ix2 e j) = x (ix2 ⟨min (idx (ix2 e 0)).toInt.toNat (N - 1), by omega⟩ j) := by
  unfold Host.gather
  rw [operandIdx_rows hN d hoff hcoll hob hsim hivd idx e j]

/-- (G1) THE GATHER READ AT (e, j), start index in range: when `0 ≤ idx[e, 0] < N` (read signed) the clamp does
    nothing, and the result is the table's row `idx[e, 0]` at column `j`. -/
theorem gather_apply_of_inRange (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (x : (⟨2, ![N, W]⟩ : Shape).Idx → α) (idx : IVec ⟨2, ![E, 1]⟩ w) (e : Fin E) (j : Fin W)
    (h0 : 0 ≤ (idx (ix2 e 0)).toInt) (h1 : (idx (ix2 e 0)).toInt < N) :
    Host.gather d x idx (ix2 e j) = x (ix2 ⟨(idx (ix2 e 0)).toInt.toNat, by omega⟩ j) := by
  have hN : 0 < N := by omega
  rw [gather_apply hN d hoff hcoll hob hsim hivd x idx e j]
  congr 2
  refine Fin.ext ?_
  show min (idx (ix2 e 0)).toInt.toNat (N - 1) = (idx (ix2 e 0)).toInt.toNat
  omega

/-- (G2) THE GATHER COMMUTES WITH A CHOICE OF COLUMNS. If a table `y` of width `W'` is the columns `c 0, c 1, …` of a
    table `x` of width `W` (`y[n, j'] = x[n, c j']`), then the gather of `y` at (e, j') is the gather of `x` at
    (e, c j'), at the same start indices — in range or not: both sides clamp the start index alike. -/
theorem gather_cols {W' : Nat} (hN : 0 < N)
    (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (d' : GatherDims ⟨2, ![N, W']⟩ ⟨2, ![E, 1]⟩ ⟨2, ![E, W']⟩)
    (hoff' : d'.offsetDims = [1]) (hcoll' : d'.collapsedSliceDims = [0]) (hob' : d'.operandBatchingDims = [])
    (hsim' : d'.startIndexMap = [0]) (hivd' : d'.indexVectorDim = 1)
    (c : Fin W' → Fin W)
    (x : (⟨2, ![N, W]⟩ : Shape).Idx → α) (y : (⟨2, ![N, W']⟩ : Shape).Idx → α)
    (hxy : ∀ (n : Fin N) (j' : Fin W'), y (ix2 n j') = x (ix2 n (c j')))
    (idx : IVec ⟨2, ![E, 1]⟩ w) (e : Fin E) (j' : Fin W') :
    Host.gather d' y idx (ix2 e j') = Host.gather d x idx (ix2 e (c j')) := by
  rw [gather_apply hN d' hoff' hcoll' hob' hsim' hivd' y idx e j',
    gather_apply hN d hoff hcoll hob hsim hivd x idx e (c j')]
  exact hxy _ _

/-- (G2), the columns a contiguous run: if `y[n, j'] = x[n, off + j']` (`y` is the column block of `x` that starts at
    `off`: a slice of a concatenation along the columns), then the gather of `y` at (e, j') is the gather of `x` at
    (e, off + j'). -/
theorem gather_cols_offset {W' : Nat} (hN : 0 < N)
    (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (d' : GatherDims ⟨2, ![N, W']⟩ ⟨2, ![E, 1]⟩ ⟨2, ![E, W']⟩)
    (hoff' : d'.offsetDims = [1]) (hcoll' : d'.collapsedSliceDims = [0]) (hob' : d'.operandBatchingDims = [])
    (hsim' : d'.startIndexMap = [0]) (hivd' : d'.indexVectorDim = 1)
    (off : Nat) (hW : off + W' ≤ W)
    (x : (⟨2, ![N, W]⟩ : Shape).Idx → α) (y : (⟨2, ![N, W']⟩ : Shape).Idx → α)
    (hxy : ∀ (n : Fin N) (j' : Fin W'), y (ix2 n j') = x (ix2 n ⟨off + j'.val, by omega⟩))
    (idx : IVec ⟨2, ![E, 1]⟩ w) (e : Fin E) (j' : Fin W') :
    Host.gather d' y idx (ix2 e j') = Host.gather d x idx (ix2 e ⟨off + j'.val, by omega⟩) :=
  gather_cols hN d hoff hcoll hob hsim hivd d' hoff' hcoll' hob' hsim' hivd' (fun j' => ⟨off + j'.val, by omega⟩) x y hxy idx e j'

end Gather

/-! ## The scatter-add -/

/-- Two rank-2 indices built from coordinates are equal exactly when the coordinates are. -/
theorem ix2_inj {n0 n1 : Nat} {a a' : Fin n0} {b b' : Fin n1} : ix2 a b = ix2 a' b' ↔ a = a' ∧ b = b' := by
  constructor
  · intro h
    exact ⟨congrFun h 0, congrFun h 1⟩
  · rintro ⟨rfl, rfl⟩; rfl

section Scatter
variable {N E W w : Nat}

/-- WHERE AN UPDATE LANDS. Update element (e, j) of a row scatter (the table's row axis inserted and scattered, the
    column axis the window; one row number per update row, on the index vector's axis 1) lands at
    (`idx[e, 0]`, j) when the row number, read signed and NOT clamped, is a row of the table, and nowhere when it is
    not. -/
theorem resultIdx?_rows (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j : Fin W) :
    d.resultIdx? (ix2 e j) idx =
      if h : 0 ≤ (idx (ix2 e 0)).toInt ∧ (idx (ix2 e 0)).toInt < N then
        some (ix2 ⟨(idx (ix2 e 0)).toInt.toNat, by omega⟩ j)
      else none := by
  obtain ⟨uw, iw, sd, ivd, wf⟩ := d
  dsimp only at huw hiw hsd hivd
  subst huw hiw hsd hivd
  set D : ScatterDims ⟨2, ![N, W]⟩ ⟨2, ![E, 1]⟩ ⟨2, ![E, W]⟩ := ⟨[1], [0], [0], 1, wf⟩ with hD
  have hs0 : D.start (ix2 e j) idx 0 = (idx (ix2 e 0)).toInt := by
    unfold ScatterDims.start
    rw [dif_pos (show (0 : Fin 2) ∈ D.scatterDimsToOperandDims from List.mem_singleton.mpr rfl)]
    congr 2
    funext b
    refine Fin.ext ?_
    match b with
    | ⟨0, _⟩ => rfl
    | ⟨1, _⟩ => rfl
  have hs1 : D.start (ix2 e j) idx 1 = 0 := by
    unfold ScatterDims.start
    rw [dif_neg (show (1 : Fin 2) ∉ D.scatterDimsToOperandDims from (by decide : (1 : Fin 2) ∉ [0]))]
  have hw0 : D.window (ix2 e j) 0 = 0 := by
    unfold ScatterDims.window
    rw [dif_neg (show (0 : Fin 2) ∉ D.sKept from by simp [hD, ScatterDims.sKept, Shape.kept])]
  have hw1 : D.window (ix2 e j) 1 = j.val := by
    unfold ScatterDims.window
    rw [dif_pos (show (1 : Fin 2) ∈ D.sKept from by simp [hD, ScatterDims.sKept, Shape.kept])]
    rw [getElem_of_eq_singleton (b := (1 : Fin 2)) rfl]
  unfold ScatterDims.resultIdx?
  by_cases h : 0 ≤ (idx (ix2 e 0)).toInt ∧ (idx (ix2 e 0)).toInt < N
  · have hall : ∀ a, 0 ≤ D.start (ix2 e j) idx a + D.window (ix2 e j) a ∧
        D.start (ix2 e j) idx a + D.window (ix2 e j) a < (⟨2, ![N, W]⟩ : Shape).size a := by
      intro a
      match a with
      | ⟨0, _⟩ =>
        show 0 ≤ D.start (ix2 e j) idx 0 + D.window (ix2 e j) 0 ∧ D.start (ix2 e j) idx 0 + D.window (ix2 e j) 0 < (N : Int)
        rw [hs0, hw0]; omega
      | ⟨1, _⟩ =>
        show 0 ≤ D.start (ix2 e j) idx 1 + D.window (ix2 e j) 1 ∧ D.start (ix2 e j) idx 1 + D.window (ix2 e j) 1 < (W : Int)
        rw [hs1, hw1]; have := j.isLt; omega
    rw [dif_pos hall, dif_pos h]
    congr 1
    funext a
    refine Fin.ext ?_
    match a with
    | ⟨0, _⟩ =>
      show (D.start (ix2 e j) idx 0 + D.window (ix2 e j) 0).toNat = (idx (ix2 e 0)).toInt.toNat
      rw [hs0, hw0]; simp
    | ⟨1, _⟩ =>
      show (D.start (ix2 e j) idx 1 + D.window (ix2 e j) 1).toNat = j.val
      rw [hs1, hw1]; simp
  · rw [dif_neg h, dif_neg]
    intro hall
    have h0 : 0 ≤ D.start (ix2 e j) idx 0 + D.window (ix2 e j) 0 ∧ D.start (ix2 e j) idx 0 + D.window (ix2 e j) 0 < (N : Int) :=
      hall 0
    rw [hs0, hw0] at h0
    exact h (by omega)

/-- An update element (e, j') lands at the table's (n, j) exactly when its row number `idx[e, 0]`, read signed, is `n`
    and its column is `j`. -/
theorem resultIdx?_eq_some_iff (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j' : Fin W) (n : Fin N) (j : Fin W) :
    d.resultIdx? (ix2 e j') idx = some (ix2 n j) ↔ (idx (ix2 e 0)).toInt = (n.val : Int) ∧ j' = j := by
  rw [resultIdx?_rows d huw hiw hsd hivd idx e j']
  have hn := n.isLt
  split
  · next h =>
    rw [Option.some.injEq, ix2_inj]
    constructor
    · rintro ⟨h1, h2⟩
      refine ⟨?_, h2⟩
      have := congrArg Fin.val h1
      simp only at this
      omega
    · rintro ⟨h1, h2⟩
      refine ⟨Fin.ext ?_, h2⟩
      show (idx (ix2 e 0)).toInt.toNat = n.val
      omega
  · next h =>
    constructor
    · intro h'; exact absurd h' (by simp)
    · rintro ⟨h1, _⟩; exact absurd (show 0 ≤ (idx (ix2 e 0)).toInt ∧ (idx (ix2 e 0)).toInt < N by omega) h

/-- (S1) THE SCATTER-ADD READ AT (n, j), no range condition: the table's element plus the sum, over the update rows
    `e` whose row number `idx[e, 0]` (read signed, not clamped) is `n`, of the update's element (e, j). An update
    row whose number is not a row of the table lands nowhere. -/
theorem hostScatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : (⟨2, ![N, W]⟩ : Shape).Idx → EReal) (idx : IVec ⟨2, ![E, 1]⟩ w) (upd : (⟨2, ![E, W]⟩ : Shape).Idx → EReal)
    (n : Fin N) (j : Fin W) :
    Ideal.hostScatterAdd d x idx upd (ix2 n j) =
      x (ix2 n j) + ∑ e ∈ Finset.univ.filter (fun e : Fin E => (idx (ix2 e 0)).toInt = (n.val : Int)), upd (ix2 e j) := by
  unfold Ideal.hostScatterAdd
  congr 1
  rw [Finset.sum_filter, sum_idx2, Finset.sum_filter]
  refine Finset.sum_congr rfl fun e _ => ?_
  simp only [resultIdx?_eq_some_iff d huw hiw hsd hivd idx e _ n j]
  by_cases h : (idx (ix2 e 0)).toInt = (n.val : Int)
  · simp only [h, true_and, if_true]
    rw [Finset.sum_ite_eq' Finset.univ j (fun j' => upd (ix2 e j'))]
    simp
  · simp only [h, false_and, if_false]
    exact Finset.sum_const_zero

/-- (S2) THE SCATTER-ADD COMMUTES WITH A CHOICE OF COLUMNS. If the table `x'` and the updates `upd'`, of width `W'`,
    are the columns `c 0, c 1, …` of `x` and `upd`, of width `W`, then the scatter-add of `upd'` into `x'` at (n, j')
    is the scatter-add of `upd` into `x` at (n, c j'), at the same row numbers. -/
theorem hostScatterAdd_cols {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (c : Fin W' → Fin W)
    (x : (⟨2, ![N, W]⟩ : Shape).Idx → EReal) (x' : (⟨2, ![N, W']⟩ : Shape).Idx → EReal)
    (hx : ∀ (n : Fin N) (j' : Fin W'), x' (ix2 n j') = x (ix2 n (c j')))
    (upd : (⟨2, ![E, W]⟩ : Shape).Idx → EReal) (upd' : (⟨2, ![E, W']⟩ : Shape).Idx → EReal)
    (hupd : ∀ (e : Fin E) (j' : Fin W'), upd' (ix2 e j') = upd (ix2 e (c j')))
    (idx : IVec ⟨2, ![E, 1]⟩ w) (n : Fin N) (j' : Fin W') :
    Ideal.hostScatterAdd d' x' idx upd' (ix2 n j') = Ideal.hostScatterAdd d x idx upd (ix2 n (c j')) := by
  rw [hostScatterAdd_apply d' huw' hiw' hsd' hivd' x' idx upd' n j',
    hostScatterAdd_apply d huw hiw hsd hivd x idx upd n (c j'), hx n j']
  congr 1
  exact Finset.sum_congr rfl fun e _ => hupd e j'

/-- (S2), the columns a contiguous run: if `x'[n, j'] = x[n, off + j']` and `upd'[e, j'] = upd[e, off + j']`, then the
    scatter-add of `upd'` into `x'` at (n, j') is the scatter-add of `upd` into `x` at (n, off + j'). -/
theorem hostScatterAdd_cols_offset {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (off : Nat) (hW : off + W' ≤ W)
    (x : (⟨2, ![N, W]⟩ : Shape).Idx → EReal) (x' : (⟨2, ![N, W']⟩ : Shape).Idx → EReal)
    (hx : ∀ (n : Fin N) (j' : Fin W'), x' (ix2 n j') = x (ix2 n ⟨off + j'.val, by omega⟩))
    (upd : (⟨2, ![E, W]⟩ : Shape).Idx → EReal) (upd' : (⟨2, ![E, W']⟩ : Shape).Idx → EReal)
    (hupd : ∀ (e : Fin E) (j' : Fin W'), upd' (ix2 e j') = upd (ix2 e ⟨off + j'.val, by omega⟩))
    (idx : IVec ⟨2, ![E, 1]⟩ w) (n : Fin N) (j' : Fin W') :
    Ideal.hostScatterAdd d' x' idx upd' (ix2 n j') = Ideal.hostScatterAdd d x idx upd (ix2 n ⟨off + j'.val, by omega⟩) :=
  hostScatterAdd_cols d huw hiw hsd hivd d' huw' hiw' hsd' hivd' (fun j' => ⟨off + j'.val, by omega⟩) x x' hx upd upd' hupd
    idx n j'

end Scatter

/-! ## The same, stated on the host operation `Host.scatterAdd` at the ideal instance -/

section HostForm
variable {N E W w : Nat} {φ : FTy}

/-- At the ideal instance the host's scatter-add is the exact sum `Ideal.hostScatterAdd`, by definition. -/
theorem scatterAdd_eq {s si u : Shape} (d : ScatterDims s si u) (x : FVec Ideal s φ) (idx : IVec si w)
    (upd : FVec Ideal u φ) : Host.scatterAdd d x idx upd = Ideal.hostScatterAdd d x idx upd := rfl

/-- (S1) on `Host.scatterAdd`: the element (n, j) of the result is the table's plus the sum of the updates' elements
    (e, j) over the update rows `e` whose row number `idx[e, 0]`, read signed, is `n`. -/
theorem scatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : FVec Ideal ⟨2, ![N, W]⟩ φ) (idx : IVec ⟨2, ![E, 1]⟩ w) (upd : FVec Ideal ⟨2, ![E, W]⟩ φ) (n : Fin N) (j : Fin W) :
    Host.scatterAdd d x idx upd (ix2 n j) =
      x (ix2 n j) + ∑ e ∈ Finset.univ.filter (fun e : Fin E => (idx (ix2 e 0)).toInt = (n.val : Int)), upd (ix2 e j) :=
  hostScatterAdd_apply d huw hiw hsd hivd x idx upd n j

/-- (S2) on `Host.scatterAdd`, any choice of columns `c`. -/
theorem scatterAdd_cols {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (c : Fin W' → Fin W)
    (x : FVec Ideal ⟨2, ![N, W]⟩ φ) (x' : FVec Ideal ⟨2, ![N, W']⟩ φ)
    (hx : ∀ (n : Fin N) (j' : Fin W'), x' (ix2 n j') = x (ix2 n (c j')))
    (upd : FVec Ideal ⟨2, ![E, W]⟩ φ) (upd' : FVec Ideal ⟨2, ![E, W']⟩ φ)
    (hupd : ∀ (e : Fin E) (j' : Fin W'), upd' (ix2 e j') = upd (ix2 e (c j')))
    (idx : IVec ⟨2, ![E, 1]⟩ w) (n : Fin N) (j' : Fin W') :
    Host.scatterAdd d' x' idx upd' (ix2 n j') = Host.scatterAdd d x idx upd (ix2 n (c j')) :=
  hostScatterAdd_cols d huw hiw hsd hivd d' huw' hiw' hsd' hivd' c x x' hx upd upd' hupd idx n j'

/-- (S2) on `Host.scatterAdd`, the columns the run that starts at `off`. -/
theorem scatterAdd_cols_offset {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (off : Nat) (hW : off + W' ≤ W)
    (x : FVec Ideal ⟨2, ![N, W]⟩ φ) (x' : FVec Ideal ⟨2, ![N, W']⟩ φ)
    (hx : ∀ (n : Fin N) (j' : Fin W'), x' (ix2 n j') = x (ix2 n ⟨off + j'.val, by omega⟩))
    (upd : FVec Ideal ⟨2, ![E, W]⟩ φ) (upd' : FVec Ideal ⟨2, ![E, W']⟩ φ)
    (hupd : ∀ (e : Fin E) (j' : Fin W'), upd' (ix2 e j') = upd (ix2 e ⟨off + j'.val, by omega⟩))
    (idx : IVec ⟨2, ![E, 1]⟩ w) (n : Fin N) (j' : Fin W') :
    Host.scatterAdd d' x' idx upd' (ix2 n j') = Host.scatterAdd d x idx upd (ix2 n ⟨off + j'.val, by omega⟩) :=
  hostScatterAdd_cols_offset d huw hiw hsd hivd d' huw' hiw' hsd' hivd' off hW x x' hx upd upd' hupd idx n j'

end HostForm

end Cert.Bridge.GS
-- ==== Proof.Finite.lean ====
/-
  FINITENESS. The precondition says every float input is finite; at the ideal instance that makes x, W and b arrays
  of real numbers. The aggregated features h = x + (scatter-add of gathered rows of x) are then real (a gathered entry
  is an entry of x, a scatter-add entry is a finite sum of gathered entries), and so is the transposed weight (a
  re-indexing of W).
-/
import proofs.«181668_j10969346474303_1_alg».proof.Proof.Gen.ReferenceIdeal.Read
import proofs.«181668_j10969346474303_1_alg».proof.Pre_finite_inputs
import proofs.«181668_j10969346474303_1_alg».proof.Proof.LibGatherScatter
import Idealize.ShloMosaic.Lib.ReduceAll

noncomputable section

namespace Cert.Proof.Finite

open Idealize.ShloMosaic Idealize.ShloMosaic.TcCoe Idealize.ShloMosaic.ValueIdx

/-- The float word 0x7F800000 is +∞. -/
private theorem inf_word : Ideal.ofBits .f32 0x7F800000#32 = (⊤ : EReal) := by
  simp [Ideal.ofBits, Ideal.ieee]

/-- An extended real whose absolute value max x (−x) is strictly below +∞ is a real number. -/
private theorem real_of_abs_lt_top (x : EReal) (h : max x (-x) < ⊤) : ∃ r : ℝ, x = (r : EReal) := by
  induction x using EReal.rec with
  | bot => simp at h
  | coe r => exact ⟨r, rfl⟩
  | top => simp at h

/-- The comparison |x| < +∞ having come out 1 says x is a real number. -/
private theorem real_of_cmp (x : EReal)
    (h : Ideal.cmp .olt (max x (-x)) (Ideal.ofBits .f32 0x7F800000#32) = 1#1) : ∃ r : ℝ, x = (r : EReal) := by
  rw [inf_word] at h
  refine real_of_abs_lt_top x ?_
  unfold Ideal.cmp at h
  by_contra hn
  simp [hn] at h

/-- One conjunct of the precondition, jnp.all(|a| < +∞) = 1, says every entry of a is a real number. -/
private theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi (cmpf .olt (Host.absf a)
        (broadcastInDim s ![] hb (constant (F := Ideal) Cert.Pre_finite_inputs.S_ .f32 0x7F800000#32)))
        (constantI Cert.Pre_finite_inputs.S_ 1 1#1) hr hu ix0 = 1#1) :
    ∀ i, ∃ r : ℝ, a i = (r : EReal) := by
  intro i
  -- the result of the reduction has one index only
  haveI : Subsingleton Cert.Pre_finite_inputs.S_.Idx := ⟨fun a b => funext fun d => d.elim0⟩
  have e := Host.reduce_andi_all _ _ hr hu ix0 h i
  exact real_of_cmp (a i) e

/-- From the printed precondition, all ones, to: x (argument 0), W (argument 3) and b (argument 4) hold reals. -/
theorem real_of_pre [Cert.Pre_finite_inputs.Facts]
    (a0 : FVec Ideal Cert.Pre_finite_inputs.S50000x512 .f32) (a1 : IVec Cert.Pre_finite_inputs.S2x160000 32)
    (a2 : FVec Ideal Cert.Pre_finite_inputs.S1 .f32) (a3 : FVec Ideal Cert.Pre_finite_inputs.S512x512 .f32)
    (a4 a5 a6 : FVec Ideal Cert.Pre_finite_inputs.S512 .f32)
    (h : Cert.Pre_finite_inputs.fn (F := Ideal) a0 a1 a2 a3 a4 a5 a6 = fun _ => 1#1) :
    (∀ i, ∃ r : ℝ, a0 i = (r : EReal)) ∧ (∀ i, ∃ r : ℝ, a3 i = (r : EReal)) ∧ (∀ i, ∃ r : ℝ, a4 i = (r : EReal)) := by
  have h0 := congrFun h ValueIdx.ix0
  dsimp only [Cert.Pre_finite_inputs.fn, Cert.Pre_finite_inputs.fn_part1] at h0
  -- the six conjuncts, joined from the left: ((((c0 ∧ c2) ∧ c3) ∧ c4) ∧ c5) ∧ c6
  obtain ⟨h0, -⟩ := IntOp.andi_eq_one.1 h0
  obtain ⟨h0, -⟩ := IntOp.andi_eq_one.1 h0
  obtain ⟨h0, h4⟩ := IntOp.andi_eq_one.1 h0
  obtain ⟨h0, h3⟩ := IntOp.andi_eq_one.1 h0
  obtain ⟨h0, -⟩ := IntOp.andi_eq_one.1 h0
  exact ⟨real_of_all a0 _ _ _ h0, real_of_all a3 _ _ _ h3, real_of_all a4 _ _ _ h4⟩

/-- A finite sum of real numbers is a real number. -/
private theorem sum_real {ι : Type} (s : Finset ι) (f : ι → EReal) (hf : ∀ e ∈ s, ∃ r : ℝ, f e = (r : EReal)) :
    ∃ r : ℝ, ∑ e ∈ s, f e = (r : EReal) := by
  classical
  induction s using Finset.induction_on with
  | empty => exact ⟨0, by simp⟩
  | insert a s ha ih =>
    obtain ⟨r, hr⟩ := hf a (Finset.mem_insert_self a s)
    obtain ⟨q, hq⟩ := ih (fun e he => hf e (Finset.mem_insert_of_mem he))
    exact ⟨r + q, by rw [Finset.sum_insert ha, hr, hq, EReal.coe_add]⟩

section
open Cert.ReferenceIdeal Cert.ReferenceIdeal.Gen Cert.ReferenceIdeal.Read
variable [Cert.ReferenceIdeal.Facts]

/-- The aggregated features of a real x are real, whatever the edge list. -/
theorem h_real (x0 : (⟨S50000x512, .f32⟩ : BufTy).Contents (Elt Ideal)) (x1 : (⟨S2x160000, .i32⟩ : BufTy).Contents (Elt Ideal))
    (hx : ∀ i, ∃ r : ℝ, x0 i = (r : EReal)) : ∀ i, ∃ r : ℝ, val_main_v14 (F := Ideal) x0 x1 i = (r : EReal) := by
  intro i
  obtain ⟨n, j, rfl⟩ : ∃ (n : Fin 50000) (j : Fin 512), i = ix2 n j := ⟨i 0, i 1, eq_ix2 i⟩
  -- a gathered entry is an entry of x
  have hg : ∀ (e : Fin 160000), ∃ r : ℝ, val_main_v10 (F := Ideal) x0 x1 (ix2 e j) = (r : EReal) := by
    intro e
    unfold val_main_v10
    rw [Cert.Bridge.GS.gather_apply (by decide) _ rfl rfl rfl rfl rfl]
    exact hx _
  -- a scatter-add entry is 0 plus a finite sum of gathered entries
  have hs : ∃ r : ℝ, val_main_v13 (F := Ideal) x0 x1 (ix2 n j) = (r : EReal) := by
    unfold val_main_v13
    rw [Cert.Bridge.GS.scatterAdd_apply _ rfl rfl rfl rfl]
    obtain ⟨q, hq⟩ := sum_real (Finset.univ.filter
      (fun e : Fin 160000 => (val_main_v12 (F := Ideal) x1 (ix2 e 0)).toInt = (n.val : Int)))
      (fun e => val_main_v10 (F := Ideal) x0 x1 (ix2 e j)) (fun e _ => hg e)
    refine ⟨0 + q, ?_⟩
    rw [hq, val_main_v11_apply, val_main_cst_apply]
    show Ideal.ofBits .f32 0x00000000#32 + (q : EReal) = _
    rw [Ideal.ofBits_zero_f32, EReal.coe_add, EReal.coe_zero]
  obtain ⟨r, hr⟩ := hx (ix2 n j)
  obtain ⟨q, hq⟩ := hs
  refine ⟨r + q, ?_⟩
  rw [val_main_v14_apply, hr, hq, EReal.coe_add]
  rfl

/-- The transposed weight of a real W is real. -/
theorem wt_real (x3 : (⟨S512x512, .f32⟩ : BufTy).Contents (Elt Ideal))
    (hx : ∀ i, ∃ r : ℝ, x3 i = (r : EReal)) : ∀ i, ∃ r : ℝ, val_main_v15 (F := Ideal) x3 i = (r : EReal) := by
  intro i
  rw [val_main_v15_apply]
  exact hx _
end

end Cert.Proof.Finite

end
-- ==== Proof.HostPrefix.lean ====
/-
  THE SHARED HOST PREFIX. Both programs begin with the same host operations on the same arguments: the aggregated
  features h = x + (scatter-add, at the target nodes, of the rows of x gathered at the source nodes) and the
  transposed weight. What the kernel's first region finds in those two arrays is, as a term of the launch memory,
  what the reference's own stages name.
-/
import proofs.«181668_j10969346474303_1_alg».proof.Proof.Gen.KernelIdeal.Frame
import proofs.«181668_j10969346474303_1_alg».proof.Proof.Gen.ReferenceIdeal.Read
import Idealize.ShloMosaic.Lib.StableHlo.Run
import Idealize.ShloMosaic.PureOps.Ideal

set_option maxRecDepth 16384

noncomputable section

namespace Cert.Proof.HostPrefix

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (ρ : Dev Cert.KernelIdeal.nD → PrngReg)

/-- The aggregated features region 0 reads are the reference's stage of the same arguments. -/
theorem V1_v14 (c : Dev Cert.KernelIdeal.nD) :
    Cert.KernelIdeal.Gen.V1 m ρ c Cert.KernelIdeal.main_v14
      = Cert.ReferenceIdeal.Read.val_main_v14 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1)) := by
  show StableHlo.after Cert.KernelIdeal.Gen.hostOps0 (Cert.KernelIdeal.Gen.W0 m ρ c) (Proc.devRef .tc Cert.KernelIdeal.main_v14) = _
  after_results
  unfold Cert.ReferenceIdeal.Read.val_main_v14 Cert.ReferenceIdeal.Read.val_main_v13 Cert.ReferenceIdeal.Read.val_main_v12
    Cert.ReferenceIdeal.Read.val_main_v11 Cert.ReferenceIdeal.Read.val_main_v10 Cert.ReferenceIdeal.Read.val_main_v9
    Cert.ReferenceIdeal.Read.val_main_v8 Cert.ReferenceIdeal.Read.val_main_v7 Cert.ReferenceIdeal.Read.val_main_v6
    Cert.ReferenceIdeal.Read.val_main_v5 Cert.ReferenceIdeal.Read.val_main_v4 Cert.ReferenceIdeal.Read.val_main_v3
    Cert.ReferenceIdeal.Read.val_main_v2 Cert.ReferenceIdeal.Read.val_main_v1 Cert.ReferenceIdeal.Read.val_main_v0
    Cert.ReferenceIdeal.Read.val_main_c Cert.ReferenceIdeal.Read.val_main_c_0 Cert.ReferenceIdeal.Read.val_main_cst
  rfl

/-- The transposed weight region 0 reads is the reference's stage of the same argument. -/
theorem V1_v15 (c : Dev Cert.KernelIdeal.nD) :
    Cert.KernelIdeal.Gen.V1 m ρ c Cert.KernelIdeal.main_v15
      = Cert.ReferenceIdeal.Read.val_main_v15 (F := Ideal)
          (m ((c : Thread Cert.KernelIdeal.nD Cert.KernelIdeal.τ).loc Cert.KernelIdeal.main_arg3)) := by
  show StableHlo.after Cert.KernelIdeal.Gen.hostOps0 (Cert.KernelIdeal.Gen.W0 m ρ c) (Proc.devRef .tc Cert.KernelIdeal.main_v15) = _
  after_results
  try rfl

end Cert.Proof.HostPrefix

end
-- ==== Proof.Bridge.lean ====
/-
  THE TWO RESULTS ARE ONE ARRAY. From memories that agree on the arguments, with every float input finite: at each
  node n and feature j both programs hold the batch normalisation of the same linear layer z of the same aggregated
  features — the kernel with the variance as second moment minus squared mean, the reference with the mean of the
  squared deviations. Every z[n, j] is a real number (x, W and b are real by the precondition; gathering, scatter-adding,
  transposing and the layer keep reals real), and for real z the two variances are one number.
-/
import proofs.«181668_j10969346474303_1_alg».proof.Defs
import proofs.«181668_j10969346474303_1_alg».proof.Proof.Gen.Pre_finite_inputs
import proofs.«181668_j10969346474303_1_alg».proof.Proof.KernelValue
import proofs.«181668_j10969346474303_1_alg».proof.Proof.RefValue
import proofs.«181668_j10969346474303_1_alg».proof.Proof.Finite
import proofs.«181668_j10969346474303_1_alg».proof.Proof.HostPrefix

set_option maxRecDepth 16384

noncomputable section

namespace Cert.Proof.Bridge

open Idealize.ShloMosaic Idealize.ShloMosaic.TcCoe Idealize.SL.Sem Idealize.ShloMosaic.ValueIdx
open Cert.Bridge.BN

/-- The reference's result term is the kernel's result buffer at the last boundary. -/
theorem results_agree
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v44 m' c = Cert.KernelIdeal.Gen.W4 m ρ c (Proc.devRef .tc Cert.KernelIdeal.main_v29) := by
  rw [Cert.ReferenceIdeal.Read.val_main_v44_eq m' c, h0, h1, h3, h4, h5, h6]
  refine funext fun i => ?_
  obtain ⟨n, j, rfl⟩ : ∃ (n : Fin 50000) (j : Fin 512), i = ix2 n j := ⟨i 0, i 1, eq_ix2 i⟩
  rw [Cert.ReferenceIdeal.RefValue.result_apply, Cert.KernelIdeal.KernelValue.result_apply m ρ c n j,
    Cert.Proof.HostPrefix.V1_v14, Cert.Proof.HostPrefix.V1_v15]
  obtain ⟨hx, hw, hb⟩ := Cert.Proof.Finite.real_of_pre _ _ _ _ _ _ _ (hpre c)
  have hz := lin_real _ _ _ (Cert.Proof.Finite.h_real _ (m ((c.tc : Thread Cert.KernelIdeal.nD Cert.KernelIdeal.τ).loc Cert.KernelIdeal.main_arg1)) hx) (Cert.Proof.Finite.wt_real _ hw)
    (fun j => hb (ix1 j))
  unfold bn
  rw [var_eq _ hz j]

end Cert.Proof.Bridge

end
-- ==== Proof.lean ====
/- Equivalence over the extended reals of a Pallas kernel and its jnp reference: a graph layer — aggregated node features
   h = x + (sum over incoming edges of the source rows of x), a linear layer z = h · Wᵀ + b — followed by batch
   normalisation over the 50000 nodes, out = γ · (z − mean) · rsqrt(var + ε) + β.
   The kernel computes z block by block (25 blocks of 2000 nodes) while accumulating the column sums of z and of z²,
   takes var = (∑ z²)/N − mean², and normalises in a second pass; the reference takes var = (∑ (z − mean)²)/N.
   The three frames are the generated ones (the reference's is its run with the result dropped); the ideal pass
   rewrote nothing, so `preserves` is trivial; `algebraic` is the kernel's run with its result named, the reference's
   run, and the identity of the two result arrays (Proof/Bridge.lean): same z, real by the precondition, and for real
   z the two variances are one number (Proof/Spec.lean). -/
import proofs.«181668_j10969346474303_1_alg».proof.Defs
import proofs.«181668_j10969346474303_1_alg».proof.Proof.Gen.Kernel
import proofs.«181668_j10969346474303_1_alg».proof.Proof.Gen.Kernel.Skeleton
import proofs.«181668_j10969346474303_1_alg».proof.Proof.Gen.Kernel.Launch
import proofs.«181668_j10969346474303_1_alg».proof.Proof.Gen.Kernel.Points
import proofs.«181668_j10969346474303_1_alg».proof.Proof.Gen.Kernel.Frame
import proofs.«181668_j10969346474303_1_alg».proof.Proof.Gen.KernelIdeal
import proofs.«181668_j10969346474303_1_alg».proof.Proof.Gen.KernelIdeal.Skeleton
import proofs.«181668_j10969346474303_1_alg».proof.Proof.Gen.KernelIdeal.Launch
import proofs.«181668_j10969346474303_1_alg».proof.Proof.Gen.KernelIdeal.Points
import proofs.«181668_j10969346474303_1_alg».proof.Proof.Gen.KernelIdeal.Frame
import proofs.«181668_j10969346474303_1_alg».proof.Proof.Gen.ReferenceIdeal
import proofs.«181668_j10969346474303_1_alg».proof.Proof.Gen.Pre_finite_inputs
import proofs.«181668_j10969346474303_1_alg».proof.Proof.Gen.ReferenceIdeal.Run
import proofs.«181668_j10969346474303_1_alg».proof.Proof.Gen.ReferenceIdeal.Read
import proofs.«181668_j10969346474303_1_alg».proof.Proof.RunNamed
import proofs.«181668_j10969346474303_1_alg».proof.Proof.Bridge
import Idealize.ShloMosaic.Adequacy
import Idealize.ShloMosaic.Init

noncomputable section

namespace Cert.Proof

open Idealize.ShloMosaic Idealize.SL.Sem Cert.Kernel

/-- The word-level kernel terminates without a fault and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs run, and end with one result array. -/
theorem algebraic : Cert.algebraic_KernelIdeal_ReferenceIdeal := by
  intro m ρ m' ρ' hpre hagree
  refine ⟨fun c => Cert.KernelIdeal.Gen.W4 m ρ c (Proc.devRef .tc Cert.KernelIdeal.main_v29),
    Cert.KernelIdeal.RunNamed.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, -, h3, h4, h5, h6⟩ := hagree c
  exact Cert.Proof.Bridge.results_agree m ρ m' hpre c h0 h1 h3 h4 h5 h6

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
